-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : FVec F S262144 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  main_v8
-- ==== Kernel.lean ====
abbrev S262144x256 : Shape := ⟨2, ![262144, 256]⟩
abbrev S262144 : Shape := ⟨1, ![262144]⟩
abbrev S_ : Shape := ⟨0, ![]⟩
abbrev S1x262144 : Shape := ⟨2, ![1, 262144]⟩
abbrev S4x262144 : Shape := ⟨2, ![4, 262144]⟩
abbrev S4 : Shape := ⟨1, ![4]⟩
abbrev S2x4x256 : Shape := ⟨3, ![2, 4, 256]⟩
abbrev S8192x256 : Shape := ⟨2, ![8192, 256]⟩
abbrev S4x8192 : Shape := ⟨2, ![4, 8192]⟩
abbrev S1x4x256 : Shape := ⟨3, ![1, 4, 256]⟩
abbrev S4x256 : Shape := ⟨2, ![4, 256]⟩
abbrev S4x1 : Shape := ⟨2, ![4, 1]⟩
abbrev S1x256 : Shape := ⟨2, ![1, 256]⟩
abbrev S256 : Shape := ⟨1, ![256]⟩

abbrev nBuf : Space → Nat
  | .hbm => 141
  | .vmem => 6
  | .smem => 0
  | _ => 0

abbrev hbmTy0_0 (i : Nat) : BufTy := match i % 128 with
  | 0 => ⟨S262144x256, .f32⟩
  | 1 => ⟨S262144, .f32⟩
  | 2 => ⟨S_, .f32⟩
  | 3 => ⟨S262144, .f32⟩
  | 4 => ⟨S262144, .i1⟩
  | 5 => ⟨S_, .f32⟩
  | 6 => ⟨S262144, .f32⟩
  | 7 => ⟨S262144, .i1⟩
  | 8 => ⟨S_, .f32⟩
  | 9 => ⟨S262144, .f32⟩
  | 10 => ⟨S262144, .i1⟩
  | 11 => ⟨S262144, .i1⟩
  | 12 => ⟨S_, .f32⟩
  | 13 => ⟨S262144, .f32⟩
  | 14 => ⟨S262144, .i1⟩
  | 15 => ⟨S_, .f32⟩
  | 16 => ⟨S262144, .f32⟩
  | 17 => ⟨S262144, .i1⟩
  | 18 => ⟨S262144, .i1⟩
  | 19 => ⟨S_, .f32⟩
  | 20 => ⟨S262144, .f32⟩
  | 21 => ⟨S262144, .i1⟩
  | 22 => ⟨S_, .f32⟩
  | 23 => ⟨S262144, .f32⟩
  | 24 => ⟨S262144, .i1⟩
  | 25 => ⟨S262144, .i1⟩
  | 26 => ⟨S1x262144, .i1⟩
  | 27 => ⟨S1x262144, .i1⟩
  | 28 => ⟨S1x262144, .i1⟩
  | 29 => ⟨S1x262144, .i1⟩
  | 30 => ⟨S4x262144, .i1⟩
  | 31 => ⟨S4x262144, .f32⟩
  | 32 => ⟨S_, .f32⟩
  | 33 => ⟨S4, .f32⟩
  | 34 => ⟨S2x4x256, .f32⟩
  | 35 => ⟨S_, .f32⟩
  | 36 => ⟨S4x256, .f32⟩
  | 37 => ⟨S4x1, .f32⟩
  | 38 => ⟨S_, .f32⟩
  | 39 => ⟨S4x1, .f32⟩
  | 40 => ⟨S4x1, .i1⟩
  | 41 => ⟨S_, .f32⟩
  | 42 => ⟨S4, .f32⟩
  | 43 => ⟨S4, .f32⟩
  | 44 => ⟨S4x1, .f32⟩
  | 45 => ⟨S4x256, .f32⟩
  | 46 => ⟨S4x256, .f32⟩
  | 47 => ⟨S_, .f32⟩
  | 48 => ⟨S_, .f32⟩
  | 49 => ⟨S4x256, .i1⟩
  | 50 => ⟨S4x256, .f32⟩
  | 51 => ⟨S4x256, .f32⟩
  | 52 => ⟨S1x256, .f32⟩
  | 53 => ⟨S256, .f32⟩
  | 54 => ⟨S1x256, .f32⟩
  | 55 => ⟨S256, .f32⟩
  | 56 => ⟨S256, .f32⟩
  | 57 => ⟨S256, .f32⟩
  | 58 => ⟨S_, .f32⟩
  | 59 => ⟨S_, .f32⟩
  | 60 => ⟨S_, .f32⟩
  | 61 => ⟨S1x256, .f32⟩
  | 62 => ⟨S256, .f32⟩
  | 63 => ⟨S1x256, .f32⟩
  | 64 => ⟨S256, .f32⟩
  | 65 => ⟨S256, .f32⟩
  | 66 => ⟨S256, .f32⟩
  | 67 => ⟨S_, .f32⟩
  | 68 => ⟨S_, .f32⟩
  | 69 => ⟨S_, .f32⟩
  | 70 => ⟨S1x256, .f32⟩
  | 71 => ⟨S256, .f32⟩
  | 72 => ⟨S1x256, .f32⟩
  | 73 => ⟨S256, .f32⟩
  | 74 => ⟨S256, .f32⟩
  | 75 => ⟨S256, .f32⟩
  | 76 => ⟨S_, .f32⟩
  | 77 => ⟨S_, .f32⟩
  | 78 => ⟨S_, .f32⟩
  | 79 => ⟨S1x256, .f32⟩
  | 80 => ⟨S256, .f32⟩
  | 81 => ⟨S1x256, .f32⟩
  | 82 => ⟨S256, .f32⟩
  | 83 => ⟨S256, .f32⟩
  | 84 => ⟨S256, .f32⟩
  | 85 => ⟨S_, .f32⟩
  | 86 => ⟨S_, .f32⟩
  | 87 => ⟨S_, .f32⟩
  | 88 => ⟨S1x256, .f32⟩
  | 89 => ⟨S256, .f32⟩
  | 90 => ⟨S1x256, .f32⟩
  | 91 => ⟨S256, .f32⟩
  | 92 => ⟨S256, .f32⟩
  | 93 => ⟨S256, .f32⟩
  | 94 => ⟨S_, .f32⟩
  | 95 => ⟨S_, .f32⟩
  | 96 => ⟨S_, .f32⟩
  | 97 => ⟨S1x256, .f32⟩
  | 98 => ⟨S256, .f32⟩
  | 99 => ⟨S1x256, .f32⟩
  | 100 => ⟨S256, .f32⟩
  | 101 => ⟨S256, .f32⟩
  | 102 => ⟨S256, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S262144x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | .local _ .vmem, ⟨0, _⟩ => ⟨S8192x256, .f32⟩
  | .local _ .vmem, ⟨1, _⟩ => ⟨S8192x256, .f32⟩
  | .local _ .vmem, ⟨2, _⟩ => ⟨S4x8192, .f32⟩
  | .local _ .vmem, ⟨3, _⟩ => ⟨S4x8192, .f32⟩
  | .local _ .vmem, ⟨4, _⟩ => ⟨S1x4x256, .f32⟩
  | .local _ .vmem, ⟨5, _⟩ => ⟨S1x4x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call4_v0 : Ref sig .tc := ⟨.hbm, 84, rfl⟩
abbrev main_call4_cst : Ref sig .tc := ⟨.hbm, 85, rfl⟩
abbrev main_call4_v1 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call5_v0 : Ref sig .tc := ⟨.hbm, 93, rfl⟩
abbrev main_call5_cst : Ref sig .tc := ⟨.hbm, 94, rfl⟩
abbrev main_call5_v1 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call6_v0 : Ref sig .tc := ⟨.hbm, 102, rfl⟩
abbrev main_call6_cst : Ref sig .tc := ⟨.hbm, 103, rfl⟩
abbrev main_call6_v1 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_call7_cst : Ref sig .tc := ⟨.hbm, 109, rfl⟩
abbrev main_v73 : Ref sig .tc := ⟨.hbm, 110, rfl⟩
abbrev main_v74 : Ref sig .tc := ⟨.hbm, 111, rfl⟩
abbrev main_cst_12 : Ref sig .tc := ⟨.hbm, 112, rfl⟩
abbrev main_v75 : Ref sig .tc := ⟨.hbm, 113, rfl⟩
abbrev main_call8_cst : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_call9_cst : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_14 : Ref sig .tc := ⟨.hbm, 124, rfl⟩
abbrev main_v83 : Ref sig .tc := ⟨.hbm, 125, rfl⟩
abbrev main_call10_cst : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_call11_cst : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_16 : Ref sig .tc := ⟨.hbm, 136, rfl⟩
abbrev main_v91 : Ref sig .tc := ⟨.hbm, 137, rfl⟩
abbrev main_call12_cst : Ref sig .tc := ⟨.hbm, 138, rfl⟩
abbrev main_v92 : Ref sig .tc := ⟨.hbm, 139, rfl⟩
abbrev main_v93 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S262144 : S_.BroadcastsInDim S262144 (![] : Fin 0 → Fin S262144.rank)
  bcast_S262144_S1x262144_1 : S262144.BroadcastsInDim S1x262144 (![1] : Fin 1 → Fin S1x262144.rank)
  concatenates_S1x262144_S1x262144_S1x262144_S1x262144_S4x262144_d0 : Shape.Concatenates [S1x262144, S1x262144, S1x262144, S1x262144] S4x262144 0
  reducesTo_S4x262144_S4_d1 : S4x262144.ReducesTo [1] S4
  h_S_ : 0 < S_.numel
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  shapeCasts_S4x256_S1x4x256 : S4x256.ShapeCasts S1x4x256
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  reducesTo_S2x4x256_S4x256_d0 : S2x4x256.ReducesTo [0] S4x256
  bcast_S4_S4x1_0 : S4.BroadcastsInDim S4x1 (![0] : Fin 1 → Fin S4x1.rank)
  bcast_S_S4x1 : S_.BroadcastsInDim S4x1 (![] : Fin 0 → Fin S4x1.rank)
  bcast_S_S4 : S_.BroadcastsInDim S4 (![] : Fin 0 → Fin S4.rank)
  bcast_S4x1_S4x256_0_1 : S4x1.BroadcastsInDim S4x256 (![0, 1] : Fin 2 → Fin S4x256.rank)
  bcast_S_S4x256 : S_.BroadcastsInDim S4x256 (![] : Fin 0 → Fin S4x256.rank)
  slices_S4x256_S1x256_0_0 : S4x256.Slices ![0, 0] S1x256
  shapeCasts_S1x256_S256 : S1x256.ShapeCasts S256
  slices_S4x256_S1x256_1_0 : S4x256.Slices ![1, 0] S1x256
  reducesTo_S256_S_d0 : S256.ReducesTo [0] S_
  slices_S4x256_S1x256_2_0 : S4x256.Slices ![2, 0] S1x256
  slices_S4x256_S1x256_3_0 : S4x256.Slices ![3, 0] S1x256
  dot_S4x8192_S8192x256_S4x256_1_0_0_1_n_n_wf : DotDims.WF S4x8192 S8192x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8192.size a ≤ S4x262144.size a
  hwx0_1 : ∀ i : grid0.Coords, EltTy.bits .f32 = 32 ∨ (Rect.block (s := S4x262144) S4x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256.size a ≤ S2x4x256.size a
  hwx0_2 : ∀ i : grid0.Coords, EltTy.bits .f32 = 32 ∨ (Rect.block (s := S2x4x256) S1x4x256.size (cc0_transform_2 i) (hinb0_2 i)).WholeWords (EltTy.packing .f32)

variable [Facts₀]

def dot_S4x8192_S8192x256_S4x256_1_0_0_1_n_n : DotDims S4x8192 S8192x256 S4x256 where
  lhsContracting := [1]
  rhsContracting := [0]
  lhsNonContracting := [0]
  rhsNonContracting := [1]
  lhsBatch := []
  rhsBatch := []
  wf := dot_S4x8192_S8192x256_S4x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩
abbrev S1x262144 : Shape := ⟨2, ![1, 262144]⟩
abbrev S4x262144 : Shape := ⟨2, ![4, 262144]⟩
abbrev S4 : Shape := ⟨1, ![4]⟩
abbrev S4x256 : Shape := ⟨2, ![4, 256]⟩
abbrev S4x1 : Shape := ⟨2, ![4, 1]⟩
abbrev S1x256 : Shape := ⟨2, ![1, 256]⟩
abbrev S256 : Shape := ⟨1, ![256]⟩

abbrev nBuf : Space → Nat
  | .hbm => 139
  | .vmem => 0
  | .smem => 0
  | _ => 0

abbrev hbmTy0_0 (i : Nat) : BufTy := match i % 128 with
  | 0 => ⟨S262144x256, .f32⟩
  | 1 => ⟨S262144, .f32⟩
  | 2 => ⟨S_, .f32⟩
  | 3 => ⟨S262144, .f32⟩
  | 4 => ⟨S262144, .i1⟩
  | 5 => ⟨S_, .f32⟩
  | 6 => ⟨S262144, .f32⟩
  | 7 => ⟨S262144, .i1⟩
  | 8 => ⟨S_, .f32⟩
  | 9 => ⟨S262144, .f32⟩
  | 10 => ⟨S262144, .i1⟩
  | 11 => ⟨S262144, .i1⟩
  | 12 => ⟨S_, .f32⟩
  | 13 => ⟨S262144, .f32⟩
  | 14 => ⟨S262144, .i1⟩
  | 15 => ⟨S_, .f32⟩
  | 16 => ⟨S262144, .f32⟩
  | 17 => ⟨S262144, .i1⟩
  | 18 => ⟨S262144, .i1⟩
  | 19 => ⟨S_, .f32⟩
  | 20 => ⟨S262144, .f32⟩
  | 21 => ⟨S262144, .i1⟩
  | 22 => ⟨S_, .f32⟩
  | 23 => ⟨S262144, .f32⟩
  | 24 => ⟨S262144, .i1⟩
  | 25 => ⟨S262144, .i1⟩
  | 26 => ⟨S1x262144, .i1⟩
  | 27 => ⟨S1x262144, .i1⟩
  | 28 => ⟨S1x262144, .i1⟩
  | 29 => ⟨S1x262144, .i1⟩
  | 30 => ⟨S4x262144, .i1⟩
  | 31 => ⟨S4x262144, .f32⟩
  | 32 => ⟨S_, .f32⟩
  | 33 => ⟨S4, .f32⟩
  | 34 => ⟨S4x256, .f32⟩
  | 35 => ⟨S4x1, .f32⟩
  | 36 => ⟨S_, .f32⟩
  | 37 => ⟨S4x1, .f32⟩
  | 38 => ⟨S4x1, .i1⟩
  | 39 => ⟨S_, .f32⟩
  | 40 => ⟨S4, .f32⟩
  | 41 => ⟨S4, .f32⟩
  | 42 => ⟨S4x1, .f32⟩
  | 43 => ⟨S4x256, .f32⟩
  | 44 => ⟨S4x256, .f32⟩
  | 45 => ⟨S_, .f32⟩
  | 46 => ⟨S_, .f32⟩
  | 47 => ⟨S4x256, .i1⟩
  | 48 => ⟨S4x256, .f32⟩
  | 49 => ⟨S4x256, .f32⟩
  | 50 => ⟨S1x256, .f32⟩
  | 51 => ⟨S256, .f32⟩
  | 52 => ⟨S1x256, .f32⟩
  | 53 => ⟨S256, .f32⟩
  | 54 => ⟨S256, .f32⟩
  | 55 => ⟨S256, .f32⟩
  | 56 => ⟨S_, .f32⟩
  | 57 => ⟨S_, .f32⟩
  | 58 => ⟨S_, .f32⟩
  | 59 => ⟨S1x256, .f32⟩
  | 60 => ⟨S256, .f32⟩
  | 61 => ⟨S1x256, .f32⟩
  | 62 => ⟨S256, .f32⟩
  | 63 => ⟨S256, .f32⟩
  | 64 => ⟨S256, .f32⟩
  | 65 => ⟨S_, .f32⟩
  | 66 => ⟨S_, .f32⟩
  | 67 => ⟨S_, .f32⟩
  | 68 => ⟨S1x256, .f32⟩
  | 69 => ⟨S256, .f32⟩
  | 70 => ⟨S1x256, .f32⟩
  | 71 => ⟨S256, .f32⟩
  | 72 => ⟨S256, .f32⟩
  | 73 => ⟨S256, .f32⟩
  | 74 => ⟨S_, .f32⟩
  | 75 => ⟨S_, .f32⟩
  | 76 => ⟨S_, .f32⟩
  | 77 => ⟨S1x256, .f32⟩
  | 78 => ⟨S256, .f32⟩
  | 79 => ⟨S1x256, .f32⟩
  | 80 => ⟨S256, .f32⟩
  | 81 => ⟨S256, .f32⟩
  | 82 => ⟨S256, .f32⟩
  | 83 => ⟨S_, .f32⟩
  | 84 => ⟨S_, .f32⟩
  | 85 => ⟨S_, .f32⟩
  | 86 => ⟨S1x256, .f32⟩
  | 87 => ⟨S256, .f32⟩
  | 88 => ⟨S1x256, .f32⟩
  | 89 => ⟨S256, .f32⟩
  | 90 => ⟨S256, .f32⟩
  | 91 => ⟨S256, .f32⟩
  | 92 => ⟨S_, .f32⟩
  | 93 => ⟨S_, .f32⟩
  | 94 => ⟨S_, .f32⟩
  | 95 => ⟨S1x256, .f32⟩
  | 96 => ⟨S256, .f32⟩
  | 97 => ⟨S1x256, .f32⟩
  | 98 => ⟨S256, .f32⟩
  | 99 => ⟨S256, .f32⟩
  | 100 => ⟨S256, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S262144x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call2_v0 : Ref sig .tc := ⟨.hbm, 64, rfl⟩
abbrev main_call2_cst : Ref sig .tc := ⟨.hbm, 65, rfl⟩
abbrev main_call2_v1 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call4_v0 : Ref sig .tc := ⟨.hbm, 82, rfl⟩
abbrev main_call4_cst : Ref sig .tc := ⟨.hbm, 83, rfl⟩
abbrev main_call4_v1 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call5_v0 : Ref sig .tc := ⟨.hbm, 91, rfl⟩
abbrev main_call5_cst : Ref sig .tc := ⟨.hbm, 92, rfl⟩
abbrev main_call5_v1 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call6_v0 : Ref sig .tc := ⟨.hbm, 100, rfl⟩
abbrev main_call6_cst : Ref sig .tc := ⟨.hbm, 101, rfl⟩
abbrev main_call6_v1 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_call7_cst : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_call8_cst : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_12 : Ref sig .tc := ⟨.hbm, 116, rfl⟩
abbrev main_v78 : Ref sig .tc := ⟨.hbm, 117, rfl⟩
abbrev main_call9_cst : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_13 : Ref sig .tc := ⟨.hbm, 122, rfl⟩
abbrev main_v82 : Ref sig .tc := ⟨.hbm, 123, rfl⟩
abbrev main_call10_cst : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_14 : Ref sig .tc := ⟨.hbm, 128, rfl⟩
abbrev main_v86 : Ref sig .tc := ⟨.hbm, 129, rfl⟩
abbrev main_call11_cst : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_15 : Ref sig .tc := ⟨.hbm, 134, rfl⟩
abbrev main_v90 : Ref sig .tc := ⟨.hbm, 135, rfl⟩
abbrev main_call12_cst : Ref sig .tc := ⟨.hbm, 136, rfl⟩
abbrev main_v91 : Ref sig .tc := ⟨.hbm, 137, rfl⟩
abbrev main_v92 : Ref sig .tc := ⟨.hbm, 138, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S1x262144_1 : S262144.BroadcastsInDim S1x262144 (![1] : Fin 1 → Fin S1x262144.rank)
  concatenates_S1x262144_S1x262144_S1x262144_S1x262144_S4x262144_d0 : Shape.Concatenates [S1x262144, S1x262144, S1x262144, S1x262144] S4x262144 0
  reducesTo_S4x262144_S4_d1 : S4x262144.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S_S4 : S_.BroadcastsInDim S4 (![] : Fin 0 → Fin S4.rank)
  bcast_S4x1_S4x256_0_1 : S4x1.BroadcastsInDim S4x256 (![0, 1] : Fin 2 → Fin S4x256.rank)
  bcast_S_S4x256 : S_.BroadcastsInDim S4x256 (![] : Fin 0 → Fin S4x256.rank)
  slices_S4x256_S1x256_0_0 : S4x256.Slices ![0, 0] S1x256
  shapeCasts_S1x256_S256 : S1x256.ShapeCasts S256
  slices_S4x256_S1x256_1_0 : S4x256.Slices ![1, 0] S1x256
  reducesTo_S256_S_d0 : S256.ReducesTo [0] S_
  slices_S4x256_S1x256_2_0 : S4x256.Slices ![2, 0] S1x256
  slices_S4x256_S1x256_3_0 : S4x256.Slices ![3, 0] S1x256
  dot_S4x262144_S262144x256_S4x256_1_0_0_1_n_n_wf : DotDims.WF S4x262144 S262144x256 S4x256 [1] [0] [0] [1] [] []

variable [Facts₀]

def dot_S4x262144_S262144x256_S4x256_1_0_0_1_n_n : DotDims S4x262144 S262144x256 S4x256 where
  lhsContracting := [1]
  rhsContracting := [0]
  lhsNonContracting := [0]
  rhsNonContracting := [1]
  lhsBatch := []
  rhsBatch := []
  wf := dot_S4x262144_S262144x256_S4x256_1_0_0_1_n_n_wf

class Facts : Prop extends Facts₀ where

variable [Facts]
-- ==== Proof.K.Kit.lean ====
/-
  The launch side of the one pipelined region of this program, written against the library's frame theorems.

  @main is a stretch of host operations (the four range masks of `target_var` stacked as a [4, N] matrix of zeros and
  ones, and their row counts), the region (a [2, 16] grid that streams 8192 rows of the feature matrix and the matching
  8192 columns of the mask matrix per point and accumulates their [4, 256] product into block `p` of a [2, 4, 256]
  result), and a long tail of host operations (the two partial sums added, the group means, six pairwise distances and
  the hinge loss over them).  This module states what the region finds in its arrays (`V`), that the arguments are
  written by no host operation before or after the region, that the tail touches only buffers the region does not keep,
  and the blocks each window holds at a grid point.
-/
import proofs.«178769_j32263794327816_1_alg».proof.Proof.Gen.Kernel.Launch
import proofs.«178769_j32263794327816_1_alg».proof.Proof.Gen.Kernel.Skeleton
import proofs.«178769_j32263794327816_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order: the partial sums added, the means, then for each of the six
    pairs of groups the difference of two rows and its norm, then the hinge terms and their sum. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26]

/-- Core `c`'s buffer contents when the region is entered: after the host operations that build the masks and counts. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor

/-- Every stretch of the tail touches TensorCore references only. -/
theorem tail_sub : (tailOpss (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub⟩
/-- And allocates nothing. -/
theorem tail_fresh : (tailOpss (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh⟩

/-- @main is the host operations before the region, the region, and the tail: it reduces to the region continued by the
    tail, at the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-! ## What the host operations write

Every host operation writes its own result buffer and nothing else; the arguments and the region's arrays are the result
buffer of no operation of the tail, and the arguments of none before the region either. -/

/-- A reference that is none of the stretch's result buffers is written by none of its operations. -/
macro "not_written" : tactic =>
  `(tactic| (simp only [List.Forall, StableHlo.nullary_writes, StableHlo.unary_writes, StableHlo.binary_writes, StableHlo.ternary_writes, StableHlo.quaternary_writes, StableHlo.reshape_writes, StableHlo.nary_writes, Finset.mem_singleton]
             repeat' apply And.intro
             all_goals exact StableHlo.devRef_ne_of_ne (by decide)))

/-- The four references the tail must leave alone: the two arguments and the region's other two arrays. -/
def Kept (r : Ref sig .tc) : Prop := r = main_arg0 ∨ r = main_arg1 ∨ r = main_v22 ∨ r = main_v24

theorem hostOps1_keeps (r : Ref sig .tc) (hr : Kept r) : (hostOps1 : List (HloOp τ sig (Elt F))).Forall fun op => Proc.devRef .tc r ∉ op.writes := by
  rcases hr with rfl | rfl | rfl | rfl <;> not_written
theorem hostOps1_1_keeps (r : Ref sig .tc) (hr : Kept r) : (hostOps1_1 : List (HloOp τ sig (Elt F))).Forall fun op => Proc.devRef .tc r ∉ op.writes := by
  rcases hr with rfl | rfl | rfl | rfl <;> not_written
theorem hostOps1_2_keeps (r : Ref sig .tc) (hr : Kept r) : (hostOps1_2 : List (HloOp τ sig (Elt F))).Forall fun op => Proc.devRef .tc r ∉ op.writes := by
  rcases hr with rfl | rfl | rfl | rfl <;> not_written
theorem hostOps1_3_keeps (r : Ref sig .tc) (hr : Kept r) : (hostOps1_3 : List (HloOp τ sig (Elt F))).Forall fun op => Proc.devRef .tc r ∉ op.writes := by
  rcases hr with rfl | rfl | rfl | rfl <;> not_written
theorem hostOps1_4_keeps (r : Ref sig .tc) (hr : Kept r) : (hostOps1_4 : List (HloOp τ sig (Elt F))).Forall fun op => Proc.devRef .tc r ∉ op.writes := by
  rcases hr with rfl | rfl | rfl | rfl <;> not_written
theorem hostOps1_5_keeps (r : Ref sig .tc) (hr : Kept r) : (hostOps1_5 : List (HloOp τ sig (Elt F))).Forall fun op => Proc.devRef .tc r ∉ op.writes := by
  rcases hr with rfl | rfl | rfl | rfl <;> not_written
theorem hostOps1_6_keeps (r : Ref sig .tc) (hr : Kept r) : (hostOps1_6 : List (HloOp τ sig (Elt F))).Forall fun op => Proc.devRef .tc r ∉ op.writes := by
  rcases hr with rfl | rfl | rfl | rfl <;> not_written
theorem hostOps1_7_keeps (r : Ref sig .tc) (hr : Kept r) : (hostOps1_7 : List (HloOp τ sig (Elt F))).Forall fun op => Proc.devRef .tc r ∉ op.writes := by
  rcases hr with rfl | rfl | rfl | rfl <;> not_written
theorem hostOps1_8_keeps (r : Ref sig .tc) (hr : Kept r) : (hostOps1_8 : List (HloOp τ sig (Elt F))).Forall fun op => Proc.devRef .tc r ∉ op.writes := by
  rcases hr with rfl | rfl | rfl | rfl <;> not_written
theorem hostOps1_9_keeps (r : Ref sig .tc) (hr : Kept r) : (hostOps1_9 : List (HloOp τ sig (Elt F))).Forall fun op => Proc.devRef .tc r ∉ op.writes := by
  rcases hr with rfl | rfl | rfl | rfl <;> not_written
theorem hostOps1_10_keeps (r : Ref sig .tc) (hr : Kept r) : (hostOps1_10 : List (HloOp τ sig (Elt F))).Forall fun op => Proc.devRef .tc r ∉ op.writes := by
  rcases hr with rfl | rfl | rfl | rfl <;> not_written
theorem hostOps1_11_keeps (r : Ref sig .tc) (hr : Kept r) : (hostOps1_11 : List (HloOp τ sig (Elt F))).Forall fun op => Proc.devRef .tc r ∉ op.writes := by
  rcases hr with rfl | rfl | rfl | rfl <;> not_written
theorem hostOps1_12_keeps (r : Ref sig .tc) (hr : Kept r) : (hostOps1_12 : List (HloOp τ sig (Elt F))).Forall fun op => Proc.devRef .tc r ∉ op.writes := by
  rcases hr with rfl | rfl | rfl | rfl <;> not_written
theorem hostOps1_13_keeps (r : Ref sig .tc) (hr : Kept r) : (hostOps1_13 : List (HloOp τ sig (Elt F))).Forall fun op => Proc.devRef .tc r ∉ op.writes := by
  rcases hr with rfl | rfl | rfl | rfl <;> not_written
theorem hostOps1_14_keeps (r : Ref sig .tc) (hr : Kept r) : (hostOps1_14 : List (HloOp τ sig (Elt F))).Forall fun op => Proc.devRef .tc r ∉ op.writes := by
  rcases hr with rfl | rfl | rfl | rfl <;> not_written
theorem hostOps1_15_keeps (r : Ref sig .tc) (hr : Kept r) : (hostOps1_15 : List (HloOp τ sig (Elt F))).Forall fun op => Proc.devRef .tc r ∉ op.writes := by
  rcases hr with rfl | rfl | rfl | rfl <;> not_written
theorem hostOps1_16_keeps (r : Ref sig .tc) (hr : Kept r) : (hostOps1_16 : List (HloOp τ sig (Elt F))).Forall fun op => Proc.devRef .tc r ∉ op.writes := by
  rcases hr with rfl | rfl | rfl | rfl <;> not_written
theorem hostOps1_17_keeps (r : Ref sig .tc) (hr : Kept r) : (hostOps1_17 : List (HloOp τ sig (Elt F))).Forall fun op => Proc.devRef .tc r ∉ op.writes := by
  rcases hr with rfl | rfl | rfl | rfl <;> not_written
theorem hostOps1_18_keeps (r : Ref sig .tc) (hr : Kept r) : (hostOps1_18 : List (HloOp τ sig (Elt F))).Forall fun op => Proc.devRef .tc r ∉ op.writes := by
  rcases hr with rfl | rfl | rfl | rfl <;> not_written
theorem hostOps1_19_keeps (r : Ref sig .tc) (hr : Kept r) : (hostOps1_19 : List (HloOp τ sig (Elt F))).Forall fun op => Proc.devRef .tc r ∉ op.writes := by
  rcases hr with rfl | rfl | rfl | rfl <;> not_written
theorem hostOps1_20_keeps (r : Ref sig .tc) (hr : Kept r) : (hostOps1_20 : List (HloOp τ sig (Elt F))).Forall fun op => Proc.devRef .tc r ∉ op.writes := by
  rcases hr with rfl | rfl | rfl | rfl <;> not_written
theorem hostOps1_21_keeps (r : Ref sig .tc) (hr : Kept r) : (hostOps1_21 : List (HloOp τ sig (Elt F))).Forall fun op => Proc.devRef .tc r ∉ op.writes := by
  rcases hr with rfl | rfl | rfl | rfl <;> not_written
theorem hostOps1_22_keeps (r : Ref sig .tc) (hr : Kept r) : (hostOps1_22 : List (HloOp τ sig (Elt F))).Forall fun op => Proc.devRef .tc r ∉ op.writes := by
  rcases hr with rfl | rfl | rfl | rfl <;> not_written
theorem hostOps1_23_keeps (r : Ref sig .tc) (hr : Kept r) : (hostOps1_23 : List (HloOp τ sig (Elt F))).Forall fun op => Proc.devRef .tc r ∉ op.writes := by
  rcases hr with rfl | rfl | rfl | rfl <;> not_written
theorem hostOps1_24_keeps (r : Ref sig .tc) (hr : Kept r) : (hostOps1_24 : List (HloOp τ sig (Elt F))).Forall fun op => Proc.devRef .tc r ∉ op.writes := by
  rcases hr with rfl | rfl | rfl | rfl <;> not_written
theorem hostOps1_25_keeps (r : Ref sig .tc) (hr : Kept r) : (hostOps1_25 : List (HloOp τ sig (Elt F))).Forall fun op => Proc.devRef .tc r ∉ op.writes := by
  rcases hr with rfl | rfl | rfl | rfl <;> not_written
theorem hostOps1_26_keeps (r : Ref sig .tc) (hr : Kept r) : (hostOps1_26 : List (HloOp τ sig (Elt F))).Forall fun op => Proc.devRef .tc r ∉ op.writes := by
  rcases hr with rfl | rfl | rfl | rfl <;> not_written

/-- No operation of the tail writes a kept reference. -/
theorem tail_keeps (r : Ref sig .tc) (hr : Kept r) : ∀ ops ∈ (tailOpss (F := F)), ∀ op ∈ ops, Proc.devRef .tc r ∉ op.writes := by
  have h : (tailOpss (F := F)).Forall fun ops => ops.Forall fun op => Proc.devRef .tc r ∉ op.writes :=
    ⟨hostOps1_keeps r hr, hostOps1_1_keeps r hr, hostOps1_2_keeps r hr, hostOps1_3_keeps r hr, hostOps1_4_keeps r hr, hostOps1_5_keeps r hr, hostOps1_6_keeps r hr, hostOps1_7_keeps r hr, hostOps1_8_keeps r hr, hostOps1_9_keeps r hr, hostOps1_10_keeps r hr, hostOps1_11_keeps r hr, hostOps1_12_keeps r hr, hostOps1_13_keeps r hr, hostOps1_14_keeps r hr, hostOps1_15_keeps r hr, hostOps1_16_keeps r hr, hostOps1_17_keeps r hr, hostOps1_18_keeps r hr, hostOps1_19_keeps r hr, hostOps1_20_keeps r hr, hostOps1_21_keeps r hr, hostOps1_22_keeps r hr, hostOps1_23_keeps r hr, hostOps1_24_keeps r hr, hostOps1_25_keeps r hr, hostOps1_26_keeps r hr⟩
  exact fun ops hops op hop => (List.forall_iff_forall_mem.mp ((List.forall_iff_forall_mem.mp h) ops hops)) op hop

theorem tail_keeps_flat (r : Ref sig .tc) (hr : Kept r) : ∀ op ∈ (tailOpss (F := F)).flatten, Proc.devRef .tc r ∉ op.writes := by
  intro op hop
  obtain ⟨ops, hops, hop'⟩ := List.mem_flatten.mp hop
  exact tail_keeps r hr ops hops op hop'

/-- The lines after the region touch the pipeline's arrays and the bypassing buffers only. -/
theorem sfx_sub : ∀ ops ∈ (tailOpss (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOpss (F := F)), ∀ op ∈ ops, op.fresh = ∅ :=
  fun ops hops op hop => (List.forall_iff_forall_mem.mp ((List.forall_iff_forall_mem.mp tail_fresh) ops hops)) op hop
/-- And write no array of the pipeline. -/
theorem sfx_keeps : ∀ ops ∈ (tailOpss (F := F)), ∀ op ∈ ops,
    ∀ w, Proc.devRef .tc (Pipeline.arrRef spec0 w) ∉ op.writes := by
  intro ops hops op hop w
  have hk : Kept (Pipeline.arrRef spec0 w) := by
    fin_cases w
    · exact Or.inl rfl
    · exact Or.inr (Or.inr (Or.inl rfl))
    · exact Or.inr (Or.inr (Or.inr rfl))
  exact tail_keeps _ hk ops hops op hop

/-- No host operation before the region writes the arguments: the region finds them as launched. -/
theorem hostOps0_keeps (r : Ref sig .tc) (hr : r = main_arg0 ∨ r = main_arg1) :
    (hostOps0 : List (HloOp τ sig (Elt F))).Forall fun op => Proc.devRef .tc r ∉ op.writes := by
  rcases hr with rfl | rfl <;> not_written

theorem V_main_arg0 (c : Dev nD) : V m c main_arg0 = m ((c : Thread nD τ).loc main_arg0) :=
  StableHlo.after_of_forall_not_mem (b := Proc.devRef .tc main_arg0) _ _ (List.forall_iff_forall_mem.mp (by
    simp only [List.flatten_cons, List.flatten_nil, List.append_nil]; exact hostOps0_keeps main_arg0 (Or.inl rfl)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.flatten_cons, List.flatten_nil, List.append_nil]; exact hostOps0_keeps main_arg1 (Or.inr rfl)))

/-- The tail leaves `main_arg1` (no array of the pipeline) as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (tail_keeps_flat main_arg1 (Or.inr (Or.inl rfl))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point, for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the mask window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the two
    argument arrays is the frame claim's post: `main_arg0` is the feature window's array, kept by the run; `main_arg1`
    is no window's array and the tail leaves it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's branch condition and its memrefs -/

/-- The condition of the body's one `scf.if` (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds exactly at the first of the sixteen steps of each half. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of the output window, through which its contents are stated. -/
abbrev VO0_2 : View sig .tc .vmem S1x4x256 .f32 := (Memref.whole cc0_stg2_0 : Memref sig .tc .vmem S1x4x256 .f32).view
/-- Each window's current staging memref at point `t`, as the pipeline passes it, and its wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x256 .f32 := win0_2.stage (cfg0.slots t 2)
abbrev hs0_2 (t : Fin cfg0.N) : (ms0_2 t).IsWhole := hstage0_2 ((cfg0.slots t 2).cast nbuf0_2)

end Cert.Kernel.Frm

end
-- ==== Proof.K.RunA.lean ====
/-
  The kernel body run once at a grid point where the accumulator is reset (the first of the sixteen steps of a half):
  the output block is stored as zeros, read back, and stored again with the product of the mask block and the feature
  block added.  The run finds the pieces the output's staging buffer ends with.
-/
import proofs.«178769_j32263794327816_1_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), at a point where the reset is taken,
    with the proof that on whole staging memrefs — the two inputs' at their contents, the output's at anything — the body runs
    to the continuation holding the inputs' as they were and the output's with its pieces written. -/
noncomputable def kernelRun0_A (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : cond0_0 i)
    (x0 : Vec F S8192x256 .f32) (x1 : Vec F S4x8192 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.K.RunB.lean ====
/-
  The kernel body run once at a grid point where the accumulator is kept (the later fifteen steps of a half): the
  output block is read at what the step before left and stored with the product of the mask block and the feature
  block added.  The run finds the one piece the output's staging buffer ends with.
-/
import proofs.«178769_j32263794327816_1_alg».proof.Proof.K.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref, as pieces, at a point where the reset is not taken, with
    the proof that on whole staging memrefs — the two inputs' at their contents, the output's at its running contents — the
    body runs to the continuation holding the inputs' as they were and the output's with its piece written. -/
noncomputable def kernelRun0_B (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : ¬cond0_0 i)
    (x0 : Vec F S8192x256 .f32) (x1 : Vec F S4x8192 .f32) (xo2 : Vec F S1x4x256 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Frm

end
-- ==== Proof.K.Frame.lean ====
/-
  The frame of the program: what the output window's staging buffer holds after each grid point, the pipeline's proof
  data, the body obligation at a generic point, and the run of @main.

  The output block of half `p` stays in its staging buffer over the sixteen steps of that half: the first step resets
  it and adds the first product, each later step adds its product to what the step before left, and the buffer is
  written back after the sixteenth.  So the contents after point `t` are defined by recursion on `t`, by which of
  the two cases of the body's one conditional the point is in.
-/
import proofs.«178769_j32263794327816_1_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a reset point the body's pieces for the output tile its block, so they cover it. -/
theorem cover0_A_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : cond0_0 i)
    (x0 : Vec F S8192x256 .f32) (x1 : Vec F S4x8192 .f32) (y : S1x4x256.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x256.size (by sl_kernel_rfl) y

/-- What a reset point leaves in the output's staging buffer: its pieces read back. -/
def out0_A_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : cond0_0 i)
    (x0 : Vec F S8192x256 .f32) (x1 : Vec F S4x8192 .f32) : Vec F S1x4x256 .f32 :=
  VO0_2.read (Elt F) (VO0_2.writes (Elt F) VO0_2.junk (kernelRun0_A c i arg2 harg2 arg3 harg3 arg4 harg4 hc0 x0 x1).1)

/-- At a later point the body's one piece for the output is its whole block. -/
theorem cover0_B_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : ¬cond0_0 i)
    (x0 : Vec F S8192x256 .f32) (x1 : Vec F S4x8192 .f32) (xo2 : Vec F S1x4x256 .f32) (y : S1x4x256.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x256.size (by sl_kernel_rfl) y

/-- What a later point leaves in the output's staging buffer, over what the point before left (`xo2`). -/
def out0_B_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : ¬cond0_0 i)
    (x0 : Vec F S8192x256 .f32) (x1 : Vec F S4x8192 .f32) (xo2 : Vec F S1x4x256 .f32) : Vec F S1x4x256 .f32 :=
  VO0_2.read (Elt F) (VO0_2.writes (Elt F) VO0_2.junk (kernelRun0_B c i arg2 harg2 arg3 harg3 arg4 harg4 hc0 x0 x1 xo2).1)

/-! ## What the output holds after each point -/

/-- The accumulation: what the output's staging buffer holds after the body at position `n` of the grid. -/
def outsAt0 (c : Dev nD) : (n : ℕ) → n < cfg0.N → Vec F S1x4x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a reset point: that case's contents. -/
theorem outsAt0_A (c : Dev nD) (t : Fin cfg0.N) (h0 : t.val % 16 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: that case's contents, over what the point before left. -/
theorem outsAt0_B (c : Dev nD) (t : Fin cfg0.N) (h0 : ¬t.val % 16 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point of a half the output's staging buffer holds what the body left at the point before: the point is not
    the first, and the buffer was not written back between (that happens only after the sixteenth step of a half). -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the closed form of the condition says which case the point
    is in, and at a later point the output holds what the point before left; so that case's run applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 16 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data say and every other unscoped buffer as the tail leaves it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.KI.Kit.lean ====
/-
  The launch side of the one pipelined region of this program, written against the library's frame theorems.

  @main is a stretch of host operations (the four range masks of `target_var` stacked as a [4, N] matrix of zeros and
  ones, and their row counts), the region (a [2, 16] grid that streams 8192 rows of the feature matrix and the matching
  8192 columns of the mask matrix per point and accumulates their [4, 256] product into block `p` of a [2, 4, 256]
  result), and a long tail of host operations (the two partial sums added, the group means, six pairwise distances and
  the hinge loss over them).  This module states what the region finds in its arrays (`V`), that the arguments are
  written by no host operation before or after the region, that the tail touches only buffers the region does not keep,
  and the blocks each window holds at a grid point.
-/
import proofs.«178769_j32263794327816_1_alg».proof.Proof.Gen.KernelIdeal.Launch
import proofs.«178769_j32263794327816_1_alg».proof.Proof.Gen.KernelIdeal.Skeleton
import proofs.«178769_j32263794327816_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order: the partial sums added, the means, then for each of the six
    pairs of groups the difference of two rows and its norm, then the hinge terms and their sum. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26]

/-- Core `c`'s buffer contents when the region is entered: after the host operations that build the masks and counts. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor

/-- Every stretch of the tail touches TensorCore references only. -/
theorem tail_sub : (tailOpss (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub⟩
/-- And allocates nothing. -/
theorem tail_fresh : (tailOpss (F := F)).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh⟩

/-- @main is the host operations before the region, the region, and the tail: it reduces to the region continued by the
    tail, at the contents the earlier operations leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-! ## What the host operations write

Every host operation writes its own result buffer and nothing else; the arguments and the region's arrays are the result
buffer of no operation of the tail, and the arguments of none before the region either. -/

/-- A reference that is none of the stretch's result buffers is written by none of its operations. -/
macro "not_written" : tactic =>
  `(tactic| (simp only [List.Forall, StableHlo.nullary_writes, StableHlo.unary_writes, StableHlo.binary_writes, StableHlo.ternary_writes, StableHlo.quaternary_writes, StableHlo.reshape_writes, StableHlo.nary_writes, Finset.mem_singleton]
             repeat' apply And.intro
             all_goals exact StableHlo.devRef_ne_of_ne (by decide)))

/-- The four references the tail must leave alone: the two arguments and the region's other two arrays. -/
def Kept (r : Ref sig .tc) : Prop := r = main_arg0 ∨ r = main_arg1 ∨ r = main_v22 ∨ r = main_v24

theorem hostOps1_keeps (r : Ref sig .tc) (hr : Kept r) : (hostOps1 : List (HloOp τ sig (Elt F))).Forall fun op => Proc.devRef .tc r ∉ op.writes := by
  rcases hr with rfl | rfl | rfl | rfl <;> not_written
theorem hostOps1_1_keeps (r : Ref sig .tc) (hr : Kept r) : (hostOps1_1 : List (HloOp τ sig (Elt F))).Forall fun op => Proc.devRef .tc r ∉ op.writes := by
  rcases hr with rfl | rfl | rfl | rfl <;> not_written
theorem hostOps1_2_keeps (r : Ref sig .tc) (hr : Kept r) : (hostOps1_2 : List (HloOp τ sig (Elt F))).Forall fun op => Proc.devRef .tc r ∉ op.writes := by
  rcases hr with rfl | rfl | rfl | rfl <;> not_written
theorem hostOps1_3_keeps (r : Ref sig .tc) (hr : Kept r) : (hostOps1_3 : List (HloOp τ sig (Elt F))).Forall fun op => Proc.devRef .tc r ∉ op.writes := by
  rcases hr with rfl | rfl | rfl | rfl <;> not_written
theorem hostOps1_4_keeps (r : Ref sig .tc) (hr : Kept r) : (hostOps1_4 : List (HloOp τ sig (Elt F))).Forall fun op => Proc.devRef .tc r ∉ op.writes := by
  rcases hr with rfl | rfl | rfl | rfl <;> not_written
theorem hostOps1_5_keeps (r : Ref sig .tc) (hr : Kept r) : (hostOps1_5 : List (HloOp τ sig (Elt F))).Forall fun op => Proc.devRef .tc r ∉ op.writes := by
  rcases hr with rfl | rfl | rfl | rfl <;> not_written
theorem hostOps1_6_keeps (r : Ref sig .tc) (hr : Kept r) : (hostOps1_6 : List (HloOp τ sig (Elt F))).Forall fun op => Proc.devRef .tc r ∉ op.writes := by
  rcases hr with rfl | rfl | rfl | rfl <;> not_written
theorem hostOps1_7_keeps (r : Ref sig .tc) (hr : Kept r) : (hostOps1_7 : List (HloOp τ sig (Elt F))).Forall fun op => Proc.devRef .tc r ∉ op.writes := by
  rcases hr with rfl | rfl | rfl | rfl <;> not_written
theorem hostOps1_8_keeps (r : Ref sig .tc) (hr : Kept r) : (hostOps1_8 : List (HloOp τ sig (Elt F))).Forall fun op => Proc.devRef .tc r ∉ op.writes := by
  rcases hr with rfl | rfl | rfl | rfl <;> not_written
theorem hostOps1_9_keeps (r : Ref sig .tc) (hr : Kept r) : (hostOps1_9 : List (HloOp τ sig (Elt F))).Forall fun op => Proc.devRef .tc r ∉ op.writes := by
  rcases hr with rfl | rfl | rfl | rfl <;> not_written
theorem hostOps1_10_keeps (r : Ref sig .tc) (hr : Kept r) : (hostOps1_10 : List (HloOp τ sig (Elt F))).Forall fun op => Proc.devRef .tc r ∉ op.writes := by
  rcases hr with rfl | rfl | rfl | rfl <;> not_written
theorem hostOps1_11_keeps (r : Ref sig .tc) (hr : Kept r) : (hostOps1_11 : List (HloOp τ sig (Elt F))).Forall fun op => Proc.devRef .tc r ∉ op.writes := by
  rcases hr with rfl | rfl | rfl | rfl <;> not_written
theorem hostOps1_12_keeps (r : Ref sig .tc) (hr : Kept r) : (hostOps1_12 : List (HloOp τ sig (Elt F))).Forall fun op => Proc.devRef .tc r ∉ op.writes := by
  rcases hr with rfl | rfl | rfl | rfl <;> not_written
theorem hostOps1_13_keeps (r : Ref sig .tc) (hr : Kept r) : (hostOps1_13 : List (HloOp τ sig (Elt F))).Forall fun op => Proc.devRef .tc r ∉ op.writes := by
  rcases hr with rfl | rfl | rfl | rfl <;> not_written
theorem hostOps1_14_keeps (r : Ref sig .tc) (hr : Kept r) : (hostOps1_14 : List (HloOp τ sig (Elt F))).Forall fun op => Proc.devRef .tc r ∉ op.writes := by
  rcases hr with rfl | rfl | rfl | rfl <;> not_written
theorem hostOps1_15_keeps (r : Ref sig .tc) (hr : Kept r) : (hostOps1_15 : List (HloOp τ sig (Elt F))).Forall fun op => Proc.devRef .tc r ∉ op.writes := by
  rcases hr with rfl | rfl | rfl | rfl <;> not_written
theorem hostOps1_16_keeps (r : Ref sig .tc) (hr : Kept r) : (hostOps1_16 : List (HloOp τ sig (Elt F))).Forall fun op => Proc.devRef .tc r ∉ op.writes := by
  rcases hr with rfl | rfl | rfl | rfl <;> not_written
theorem hostOps1_17_keeps (r : Ref sig .tc) (hr : Kept r) : (hostOps1_17 : List (HloOp τ sig (Elt F))).Forall fun op => Proc.devRef .tc r ∉ op.writes := by
  rcases hr with rfl | rfl | rfl | rfl <;> not_written
theorem hostOps1_18_keeps (r : Ref sig .tc) (hr : Kept r) : (hostOps1_18 : List (HloOp τ sig (Elt F))).Forall fun op => Proc.devRef .tc r ∉ op.writes := by
  rcases hr with rfl | rfl | rfl | rfl <;> not_written
theorem hostOps1_19_keeps (r : Ref sig .tc) (hr : Kept r) : (hostOps1_19 : List (HloOp τ sig (Elt F))).Forall fun op => Proc.devRef .tc r ∉ op.writes := by
  rcases hr with rfl | rfl | rfl | rfl <;> not_written
theorem hostOps1_20_keeps (r : Ref sig .tc) (hr : Kept r) : (hostOps1_20 : List (HloOp τ sig (Elt F))).Forall fun op => Proc.devRef .tc r ∉ op.writes := by
  rcases hr with rfl | rfl | rfl | rfl <;> not_written
theorem hostOps1_21_keeps (r : Ref sig .tc) (hr : Kept r) : (hostOps1_21 : List (HloOp τ sig (Elt F))).Forall fun op => Proc.devRef .tc r ∉ op.writes := by
  rcases hr with rfl | rfl | rfl | rfl <;> not_written
theorem hostOps1_22_keeps (r : Ref sig .tc) (hr : Kept r) : (hostOps1_22 : List (HloOp τ sig (Elt F))).Forall fun op => Proc.devRef .tc r ∉ op.writes := by
  rcases hr with rfl | rfl | rfl | rfl <;> not_written
theorem hostOps1_23_keeps (r : Ref sig .tc) (hr : Kept r) : (hostOps1_23 : List (HloOp τ sig (Elt F))).Forall fun op => Proc.devRef .tc r ∉ op.writes := by
  rcases hr with rfl | rfl | rfl | rfl <;> not_written
theorem hostOps1_24_keeps (r : Ref sig .tc) (hr : Kept r) : (hostOps1_24 : List (HloOp τ sig (Elt F))).Forall fun op => Proc.devRef .tc r ∉ op.writes := by
  rcases hr with rfl | rfl | rfl | rfl <;> not_written
theorem hostOps1_25_keeps (r : Ref sig .tc) (hr : Kept r) : (hostOps1_25 : List (HloOp τ sig (Elt F))).Forall fun op => Proc.devRef .tc r ∉ op.writes := by
  rcases hr with rfl | rfl | rfl | rfl <;> not_written
theorem hostOps1_26_keeps (r : Ref sig .tc) (hr : Kept r) : (hostOps1_26 : List (HloOp τ sig (Elt F))).Forall fun op => Proc.devRef .tc r ∉ op.writes := by
  rcases hr with rfl | rfl | rfl | rfl <;> not_written

/-- No operation of the tail writes a kept reference. -/
theorem tail_keeps (r : Ref sig .tc) (hr : Kept r) : ∀ ops ∈ (tailOpss (F := F)), ∀ op ∈ ops, Proc.devRef .tc r ∉ op.writes := by
  have h : (tailOpss (F := F)).Forall fun ops => ops.Forall fun op => Proc.devRef .tc r ∉ op.writes :=
    ⟨hostOps1_keeps r hr, hostOps1_1_keeps r hr, hostOps1_2_keeps r hr, hostOps1_3_keeps r hr, hostOps1_4_keeps r hr, hostOps1_5_keeps r hr, hostOps1_6_keeps r hr, hostOps1_7_keeps r hr, hostOps1_8_keeps r hr, hostOps1_9_keeps r hr, hostOps1_10_keeps r hr, hostOps1_11_keeps r hr, hostOps1_12_keeps r hr, hostOps1_13_keeps r hr, hostOps1_14_keeps r hr, hostOps1_15_keeps r hr, hostOps1_16_keeps r hr, hostOps1_17_keeps r hr, hostOps1_18_keeps r hr, hostOps1_19_keeps r hr, hostOps1_20_keeps r hr, hostOps1_21_keeps r hr, hostOps1_22_keeps r hr, hostOps1_23_keeps r hr, hostOps1_24_keeps r hr, hostOps1_25_keeps r hr, hostOps1_26_keeps r hr⟩
  exact fun ops hops op hop => (List.forall_iff_forall_mem.mp ((List.forall_iff_forall_mem.mp h) ops hops)) op hop

theorem tail_keeps_flat (r : Ref sig .tc) (hr : Kept r) : ∀ op ∈ (tailOpss (F := F)).flatten, Proc.devRef .tc r ∉ op.writes := by
  intro op hop
  obtain ⟨ops, hops, hop'⟩ := List.mem_flatten.mp hop
  exact tail_keeps r hr ops hops op hop'

/-- The lines after the region touch the pipeline's arrays and the bypassing buffers only. -/
theorem sfx_sub : ∀ ops ∈ (tailOpss (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
/-- They allocate nothing. -/
theorem sfx_fresh : ∀ ops ∈ (tailOpss (F := F)), ∀ op ∈ ops, op.fresh = ∅ :=
  fun ops hops op hop => (List.forall_iff_forall_mem.mp ((List.forall_iff_forall_mem.mp tail_fresh) ops hops)) op hop
/-- And write no array of the pipeline. -/
theorem sfx_keeps : ∀ ops ∈ (tailOpss (F := F)), ∀ op ∈ ops,
    ∀ w, Proc.devRef .tc (Pipeline.arrRef spec0 w) ∉ op.writes := by
  intro ops hops op hop w
  have hk : Kept (Pipeline.arrRef spec0 w) := by
    fin_cases w
    · exact Or.inl rfl
    · exact Or.inr (Or.inr (Or.inl rfl))
    · exact Or.inr (Or.inr (Or.inr rfl))
  exact tail_keeps _ hk ops hops op hop

/-- No host operation before the region writes the arguments: the region finds them as launched. -/
theorem hostOps0_keeps (r : Ref sig .tc) (hr : r = main_arg0 ∨ r = main_arg1) :
    (hostOps0 : List (HloOp τ sig (Elt F))).Forall fun op => Proc.devRef .tc r ∉ op.writes := by
  rcases hr with rfl | rfl <;> not_written

theorem V_main_arg0 (c : Dev nD) : V m c main_arg0 = m ((c : Thread nD τ).loc main_arg0) :=
  StableHlo.after_of_forall_not_mem (b := Proc.devRef .tc main_arg0) _ _ (List.forall_iff_forall_mem.mp (by
    simp only [List.flatten_cons, List.flatten_nil, List.append_nil]; exact hostOps0_keeps main_arg0 (Or.inl rfl)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.flatten_cons, List.flatten_nil, List.append_nil]; exact hostOps0_keeps main_arg1 (Or.inr rfl)))

/-- The tail leaves `main_arg1` (no array of the pipeline) as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (tail_keeps_flat main_arg1 (Or.inr (Or.inl rfl))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point, for any proof data whose array is `V`'s and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the mask window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the two
    argument arrays is the frame claim's post: `main_arg0` is the feature window's array, kept by the run; `main_arg1`
    is no window's array and the tail leaves it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's branch condition and its memrefs -/

/-- The condition of the body's one `scf.if` (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds exactly at the first of the sixteen steps of each half. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of the output window, through which its contents are stated. -/
abbrev VO0_2 : View sig .tc .vmem S1x4x256 .f32 := (Memref.whole cc0_stg2_0 : Memref sig .tc .vmem S1x4x256 .f32).view
/-- Each window's current staging memref at point `t`, as the pipeline passes it, and its wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x256 .f32 := win0_2.stage (cfg0.slots t 2)
abbrev hs0_2 (t : Fin cfg0.N) : (ms0_2 t).IsWhole := hstage0_2 ((cfg0.slots t 2).cast nbuf0_2)

end Cert.KernelIdeal.Frm

end
-- ==== Proof.KI.RunA.lean ====
/-
  The kernel body run once at a grid point where the accumulator is reset (the first of the sixteen steps of a half):
  the output block is stored as zeros, read back, and stored again with the product of the mask block and the feature
  block added.  The run finds the pieces the output's staging buffer ends with.
-/
import proofs.«178769_j32263794327816_1_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), at a point where the reset is taken,
    with the proof that on whole staging memrefs — the two inputs' at their contents, the output's at anything — the body runs
    to the continuation holding the inputs' as they were and the output's with its pieces written. -/
noncomputable def kernelRun0_A (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : cond0_0 i)
    (x0 : Vec F S8192x256 .f32) (x1 : Vec F S4x8192 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.KI.RunB.lean ====
/-
  The kernel body run once at a grid point where the accumulator is kept (the later fifteen steps of a half): the
  output block is read at what the step before left and stored with the product of the mask block and the feature
  block added.  The run finds the one piece the output's staging buffer ends with.
-/
import proofs.«178769_j32263794327816_1_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref, as pieces, at a point where the reset is not taken, with
    the proof that on whole staging memrefs — the two inputs' at their contents, the output's at its running contents — the
    body runs to the continuation holding the inputs' as they were and the output's with its piece written. -/
noncomputable def kernelRun0_B (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : ¬cond0_0 i)
    (x0 : Vec F S8192x256 .f32) (x1 : Vec F S4x8192 .f32) (xo2 : Vec F S1x4x256 .f32) :
    { L2 : List (View.Piece (Elt F) S1x4x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Frm

end
-- ==== Proof.KI.Frame.lean ====
/-
  The frame of the program: what the output window's staging buffer holds after each grid point, the pipeline's proof
  data, the body obligation at a generic point, and the run of @main.

  The output block of half `p` stays in its staging buffer over the sixteen steps of that half: the first step resets
  it and adds the first product, each later step adds its product to what the step before left, and the buffer is
  written back after the sixteenth.  So the contents after point `t` are defined by recursion on `t`, by which of
  the two cases of the body's one conditional the point is in.
-/
import proofs.«178769_j32263794327816_1_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a reset point the body's pieces for the output tile its block, so they cover it. -/
theorem cover0_A_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : cond0_0 i)
    (x0 : Vec F S8192x256 .f32) (x1 : Vec F S4x8192 .f32) (y : S1x4x256.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x256.size (by sl_kernel_rfl) y

/-- What a reset point leaves in the output's staging buffer: its pieces read back. -/
def out0_A_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : cond0_0 i)
    (x0 : Vec F S8192x256 .f32) (x1 : Vec F S4x8192 .f32) : Vec F S1x4x256 .f32 :=
  VO0_2.read (Elt F) (VO0_2.writes (Elt F) VO0_2.junk (kernelRun0_A c i arg2 harg2 arg3 harg3 arg4 harg4 hc0 x0 x1).1)

/-- At a later point the body's one piece for the output is its whole block. -/
theorem cover0_B_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : ¬cond0_0 i)
    (x0 : Vec F S8192x256 .f32) (x1 : Vec F S4x8192 .f32) (xo2 : Vec F S1x4x256 .f32) (y : S1x4x256.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x256.size (by sl_kernel_rfl) y

/-- What a later point leaves in the output's staging buffer, over what the point before left (`xo2`). -/
def out0_B_2 (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc0 : ¬cond0_0 i)
    (x0 : Vec F S8192x256 .f32) (x1 : Vec F S4x8192 .f32) (xo2 : Vec F S1x4x256 .f32) : Vec F S1x4x256 .f32 :=
  VO0_2.read (Elt F) (VO0_2.writes (Elt F) VO0_2.junk (kernelRun0_B c i arg2 harg2 arg3 harg3 arg4 harg4 hc0 x0 x1 xo2).1)

/-! ## What the output holds after each point -/

/-- The accumulation: what the output's staging buffer holds after the body at position `n` of the grid. -/
def outsAt0 (c : Dev nD) : (n : ℕ) → n < cfg0.N → Vec F S1x4x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At a reset point: that case's contents. -/
theorem outsAt0_A (c : Dev nD) (t : Fin cfg0.N) (h0 : t.val % 16 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: that case's contents, over what the point before left. -/
theorem outsAt0_B (c : Dev nD) (t : Fin cfg0.N) (h0 : ¬t.val % 16 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point of a half the output's staging buffer holds what the body left at the point before: the point is not
    the first, and the buffer was not written back between (that happens only after the sixteenth step of a half). -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the closed form of the condition says which case the point
    is in, and at a later point the output holds what the point before left; so that case's run applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 16 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data say and every other unscoped buffer as the tail leaves it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.KI.Value.lean ====
/-
  What the region leaves in its result array, for any float family.

  At a reset step the body leaves `upd x0 x1 zero` in the output's staging buffer and at a later step `upd x0 x1 acc`, where
  `upd` is the body's stored value as a function of the feature block `x0`, the mask block `x1` and the buffer's earlier
  contents, and `zero` the block the reset stores.  So after the point at position `n` the buffer holds the running value
  `run n` of that recursion, restarted at every sixteenth point; the two points that end a half (15 and 31) write it back as
  block 0 and block 1 of the [2, 4, 256] result, which therefore ends at `result`: entry `(p, g, d)` is entry `(0, g, d)` of
  the running value after point `16 p + 15`.
-/
import proofs.«178769_j32263794327816_1_alg».proof.Proof.KI.Frame
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- At a later step the body leaves the update of the buffer's earlier contents by the two blocks. -/
theorem out_B (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc : ¬cond0_0 i)
    (x0 : Vec F S8192x256 .f32) (x1 : Vec F S4x8192 .f32) (xo : Vec F S1x4x256 .f32) :
    out0_B_2 c i arg2 harg2 arg3 harg3 arg4 harg4 hc x0 x1 xo = k0_pay2 x0 x1 xo := by
  unfold out0_B_2
  rw [View.read_writes_eq_canon _ _ _ (cover0_B_2 c i arg2 harg2 arg3 harg3 arg4 harg4 hc x0 x1 xo)]
  unfold kernelRun0_B
  dsimp only
  sl_unfold_words
  rw [View.canon_unit_zero hz3]
  simp only [View.readAt_eq_ld, harg2.read_unread, harg3.read_unread, harg4.read_unread,
    View.ld_unit_zero (S := S8192x256) hz2, View.ld_unit_zero (S := S4x8192) hz2, View.ld_unit_zero (S := S1x4x256) hz3]

/-- At a reset step it leaves the update of the zero block. -/
theorem out_A (c : Dev nD) (i : grid0.Coords) (arg2 : Memref sig .tc .vmem S8192x256 .f32) (harg2 : arg2.IsWhole) (arg3 : Memref sig .tc .vmem S4x8192 .f32) (harg3 : arg3.IsWhole) (arg4 : Memref sig .tc .vmem S1x4x256 .f32) (harg4 : arg4.IsWhole) (hc : cond0_0 i)
    (x0 : Vec F S8192x256 .f32) (x1 : Vec F S4x8192 .f32) :
    out0_A_2 c i arg2 harg2 arg3 harg3 arg4 harg4 hc x0 x1 = k0_pay2 x0 x1 (k0_pay1 (F := F)) := by
  unfold out0_A_2
  rw [View.read_writes_eq_canon _ _ _ (cover0_A_2 c i arg2 harg2 arg3 harg3 arg4 harg4 hc x0 x1)]
  unfold kernelRun0_A
  dsimp only
  sl_unfold_words
  rw [View.canon_cons_unit_zero (S := S1x4x256) hz3, View.readCov_unit_zero (S := S1x4x256) _ hz3]
  simp only [View.readAt_eq_ld, harg2.read_unread, harg3.read_unread,
    View.ld_unit_zero (S := S8192x256) hz2, View.ld_unit_zero (S := S4x8192) hz2, View.ld_unit_zero (S := S1x4x256) hz3]

/-- The running value after the point at position `n`: restarted from the zero block at every sixteenth point. -/
def run (c : Dev nD) : (n : ℕ) → n < cfg0.N → Vec F S1x4x256 .f32
  | 0, h => k0_pay2 (iblk m c 0 ⟨0, h⟩) (iblk m c 1 ⟨0, h⟩) (k0_pay1 (F := F))
  | n + 1, h =>
    if (n + 1) % 16 = 0 then k0_pay2 (iblk m c 0 ⟨n + 1, h⟩) (iblk m c 1 ⟨n + 1, h⟩) (k0_pay1 (F := F))
    else k0_pay2 (iblk m c 0 ⟨n + 1, h⟩) (iblk m c 1 ⟨n + 1, h⟩) (run c n (Nat.lt_of_succ_lt h))

/-- What the output's staging buffer holds after each point is the running value, by induction on the point. -/
theorem outsAt_eq (c : Dev nD) : ∀ (n : ℕ) (h : n < cfg0.N), outsAt0 m c n h = run m c n h
  | 0, h => (outsAt0_A m c ⟨0, h⟩ rfl).trans (out_A ..)
  | n + 1, h => by
    by_cases h0 : (n + 1) % 16 = 0
    · rw [outsAt0_A m c ⟨n + 1, h⟩ h0, out_A]
      simp only [run, if_pos h0]
    · rw [outsAt0_B m c ⟨n + 1, h⟩ h0, out_B]
      simp only [run, if_neg h0]
      show k0_pay2 _ _ (outsAt0 m c n _) = k0_pay2 _ _ (run m c n _)
      rw [outsAt_eq c n]

/-! ## The result array -/

/-- The running value does not depend on how its position is written. -/
theorem run_congr (c : Dev nD) {n n' : ℕ} (e : n = n') (h : n < cfg0.N) (h' : n' < cfg0.N) : run m c n h = run m c n' h' := by
  subst e; rfl

/-- The printed index maps, decided over the grid: the feature window's block row and the mask window's block column are
    the point's position, and the output's block is the half the point lies in. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 16 ∧ win0_2.index t (1 : Fin 3) = 0 ∧ win0_2.index t (2 : Fin 3) = 0 :=
  (by decide +kernel : ∀ t : Fin grid0.N, _)

/-- The last point of half `p` is a point of the grid. -/
theorem last_lt (p : Fin 2) : p.val * 16 + 15 < cfg0.N := by
  have := p.isLt; rw [show cfg0.N = 32 from N_0]; omega

/-- Entry `(p, g, d)` of the result: entry `(0, g, d)` of the running value after the last point of half `p`. -/
def resultAt (c : Dev nD) (p : Fin 2) (g : Fin 4) (d : Fin 256) : Elt F .f32 :=
  run m c (p.val * 16 + 15) (last_lt p) (ix3 (0 : Fin 1) g d)

/-- The result array. -/
def result (c : Dev nD) : Buf (Elt F) ((c : Thread nD τ).loc main_v24) := fun y => resultAt m c (y 0) (y 1) (y 2)

/-- What the last point of a half writes back is that half's block of `result`. -/
theorem flushed_eq (c : Dev nD) (t : Fin cfg0.N) (hf : (cfg0.win 2).flush t = true) :
    (dats m 0 c).flushed 2 t = ((cfg0.win 2).blk t).view.read (Elt F) (result m c) := by
  have hN : t.val < 32 := lt_of_lt_of_eq t.isLt (show cfg0.N = 32 from N_0)
  have h15 : t.val % 16 = 15 := (flush0_2 t).mp hf
  obtain ⟨-, -, -, -, e0, e1, e2⟩ := idx_facts t
  show (cfg0.win 2).cut (grid0.coords t) ((dats m 0 c).after 2 t) = _
  rw [after0_2, outsAt_eq]
  funext j
  show run m c t.val t.isLt j = result m c (((cfg0.win 2).blk t).view.emb j)
  have hj0 : (j 0).val < 1 := (j 0).isLt
  have hp : ((((cfg0.win 2).blk t).view.emb j) 0).val = t.val / 16 := by
    show win0_2.index t (0 : Fin 3) * 1 + 1 * (j 0).val = _
    omega
  unfold result resultAt
  rw [run_congr m c (show ((((cfg0.win 2).blk t).view.emb j) 0).val * 16 + 15 = t.val by rw [hp]; omega) _ t.isLt]
  refine congrArg (run m c t.val t.isLt) (funext fun a => Fin.ext ?_)
  match a with
  | ⟨0, _⟩ => show (j 0).val = 0; omega
  | ⟨1, _⟩ => show (j 1).val = win0_2.index t (1 : Fin 3) * 4 + 1 * (j 1).val; omega
  | ⟨2, _⟩ => show (j 2).val = win0_2.index t (2 : Fin 3) * 256 + 1 * (j 2).val; omega

/-- An index of the result array is in point `t`'s block iff each coordinate is in the block's range on its axis. -/
theorem mem_blk (t : Fin cfg0.N) (i : S2x4x256.Idx) :
    i ∈ ((cfg0.win 2).blk t).view.set ↔ ∀ a : Fin 3, win0_2.index t a * S1x4x256.size a ≤ (i a).val ∧ (i a).val < win0_2.index t a * S1x4x256.size a + S1x4x256.size a := by
  show i ∈ ((View.whole main_v24).slice (win0_2.rect t)).set ↔ _
  rw [View.set_slice_whole, Rect.mem_set_unit]
  exact Iff.rfl

/-- The result array after the run: the two halves' last points cover it. -/
theorem final (c : Dev nD) : (dats m 0 c).arrAt 2 cfg0.N = result m c :=
  (dats m 0 c).arrAt_eq_of_cover 2 (result m c) (flushed_eq m c) fun i => by
    have hi0 : (i 0).val < 2 := (i 0).isLt
    have hi1 : (i 1).val < 4 := (i 1).isLt
    have hi2 : (i 2).val < 256 := (i 2).isLt
    let t : Fin cfg0.N := ⟨(i 0).val * 16 + 15, by rw [show cfg0.N = 32 from N_0]; omega⟩
    have ht : t.val = (i 0).val * 16 + 15 := rfl
    obtain ⟨-, -, -, -, e0, e1, e2⟩ := idx_facts t
    refine ⟨t, (flush0_2 t).mpr (by rw [ht]; omega), ?_⟩
    rw [mem_blk]
    intro a
    match a with
    | ⟨0, _⟩ => show win0_2.index t (0 : Fin 3) * 1 ≤ (i 0).val ∧ (i 0).val < win0_2.index t (0 : Fin 3) * 1 + 1; rw [e0, ht]; omega
    | ⟨1, _⟩ => show win0_2.index t (1 : Fin 3) * 4 ≤ (i 1).val ∧ (i 1).val < win0_2.index t (1 : Fin 3) * 4 + 4; rw [e1]; omega
    | ⟨2, _⟩ => show win0_2.index t (2 : Fin 3) * 256 ≤ (i 2).val ∧ (i 2).val < win0_2.index t (2 : Fin 3) * 256 + 256; rw [e2]; omega

end Cert.KernelIdeal.Val

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.KI.Pay.lean ====
/-
  The kernel body's two stored values at the exact reals, read at an entry of the [1, 4, 256] output block: the reset stores
  zeros; the update stores the old entry plus the inner product of row `g` of the [4, 8192] mask block with column `d` of
  the [8192, 256] feature block (the two narrowings to bf16 are the identity there, the matrix unit's product is the sum
  over the 8192 contracted positions, and the two changes of shape between [4, 256] and [1, 4, 256] keep the entries).
-/
import proofs.«178769_j32263794327816_1_alg».proof.Proof.Gen.KernelIdeal.Skeleton
import proofs.«178769_j32263794327816_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The reset's stored block is zero everywhere. -/
theorem pay1_apply (g : Fin 4) (d : Fin 256) :
    (k0_pay1 (F := Ideal)) (ix3 (0 : Fin 1) g d) = 0 := by
  unfold k0_pay1
  -- the cast from [4, 256] keeps the entry (g, d); the broadcast holds the zero word's value there
  refine (shapeCast_ab_1ab_apply _ _ (0 : Fin 1) g d).trans ?_
  exact Ideal.ofBits_zero_f32

/-- The update's stored block at `(0, g, d)`: the old entry plus the inner product of mask row `g` and feature column `d`. -/
theorem pay2_apply (x0 : Vec Ideal S8192x256 .f32) (x1 : Vec Ideal S4x8192 .f32) (xo : Vec Ideal S1x4x256 .f32)
    (g : Fin 4) (d : Fin 256) :
    k0_pay2 x0 x1 xo (ix3 (0 : Fin 1) g d)
      = xo (ix3 (0 : Fin 1) g d) + ∑ i : Fin 8192, x1 (ix2 g i) * x0 (ix2 i d) := by
  have hd : dot_S4x8192_S8192x256_S4x256_1_0_0_1_n_n = DotDims.plain 4 8192 256 := rfl
  unfold k0_pay2
  -- the cast to [1, 4, 256] keeps the entry (g, d) of the sum of the old block and the product
  refine (shapeCast_ab_1ab_apply _ _ (0 : Fin 1) g d).trans ?_
  refine (addf_apply _ _ (ix2 g d)).trans ?_
  refine congrArg₂ (· + ·) ?_ ?_
  · -- the cast from [1, 4, 256] keeps the old entry
    exact shapeCast_1ab_ab_apply xo _ g d
  · -- the product into the zero splat is the sum over the contracted positions; the narrowings and the same-shape cast
    -- are the identity
    refine (Cert.LibKeepdims.matmul_plain_apply _ hd none _ _ g d).trans ?_
    refine Finset.sum_congr rfl fun i _ => ?_
    show shapeCast S4x8192 x1 _ (ix2 g i) * x0 (ix2 i d) = x1 (ix2 g i) * x0 (ix2 i d)
    rw [shapeCast_self]

end Cert.KernelIdeal.Pay

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Algebra.lean ====
/-
  The sum identity that joins the two programs, over the extended reals.

  The N = 262144 contracted positions of the reference's one matrix product are cut by the kernel into 2 halves of 16 steps
  of 8192 positions: position `(p * 16 + j) * 8192 + i` is element `i` of step `j` of half `p`.  If entry `(p, g, d)` of a
  [2, 4, 256] array holds the sum over the steps and positions of half `p` of the products `M (g, n) * X (n, d)`, then the
  host's sum of that array over its first axis, from an initial zero, is the plain product of `M` and `X` at `(g, d)`.
  Only associativity and commutativity of `+` and `0 + x = x` are used: no entry need be finite.
-/
import proofs.«178769_j32263794327816_1_alg».proof.Proof.LibTileSums
import proofs.«178769_j32263794327816_1_alg».proof.Proof.LibKeepdims
import Idealize.ShloMosaic.Lib.ValueIdx
import Idealize.ShloMosaic.PureOps.Ideal.Laws

noncomputable section

namespace Cert.Algebra

open Idealize.ShloMosaic Idealize.ShloMosaic.ValueIdx
open scoped BigOperators

/-- Element `i` of step `j` of half `p` is a position below N. -/
theorem pos_lt (p : Fin 2) (j : Fin 16) (i : Fin 8192) : (p.val * 16 + j.val) * 8192 + i.val < 262144 := by
  have := p.isLt; have := j.isLt; have := i.isLt; omega

/-- That position, as an index of the long axis. -/
abbrev pos (p : Fin 2) (j : Fin 16) (i : Fin 8192) : Fin 262144 := ⟨(p.val * 16 + j.val) * 8192 + i.val, pos_lt p j i⟩

/-- A sum over all N positions, half by half, step by step. -/
theorem sum_halves_steps (f : Fin 262144 → EReal) :
    ∑ p : Fin 2, ∑ j : Fin 16, ∑ i : Fin 8192, f (pos p j i) = ∑ n : Fin 262144, f n := by
  have h1 : (32 : ℕ) * 8192 = 262144 := by norm_num
  have h2 : (2 : ℕ) * 16 = 32 := by norm_num
  -- the 262144 positions as 32 steps of 8192, then the 32 steps as 2 halves of 16
  refine Eq.trans ?_ (Cert.LibTileSums.sum_tiles h1 f)
  refine Eq.trans ?_ (Cert.LibTileSums.sum_tiles h2
    (fun q : Fin 32 => ∑ r : Fin 8192, f ⟨q.val * 8192 + r.val, Cert.LibTileSums.tile_lt h1 q r⟩))
  exact Finset.sum_congr rfl fun p _ => Finset.sum_congr rfl fun j _ => Finset.sum_congr rfl fun i _ =>
    congrArg f (Fin.ext rfl)

/-- Over a rank-3 shape reduced along axis 0, the source index above `(g, d)` with coordinate `p` on the dropped axis is
    `(p, g, d)`. -/
theorem lift_ix2_axis0 {a b c : ℕ} (h : (⟨3, ![a, b, c]⟩ : Shape).Reduces [(0 : Fin 3)] ⟨2, ![b, c]⟩)
    (g : Fin b) (d : Fin c) (p : Fin a) : h.lift (ix2 g d) p = ix3 p g d :=
  funext fun x => Fin.ext (match x with | ⟨0, _⟩ => rfl | ⟨1, _⟩ => rfl | ⟨2, _⟩ => rfl)

/-- The host's sum over the two halves of an array of per-half sums is the one matrix product. -/
theorem host_sum_eq_dot (dK : DotDims ⟨2, ![4, 262144]⟩ ⟨2, ![262144, 256]⟩ ⟨2, ![4, 256]⟩) (hd : dK = DotDims.plain 4 262144 256)
    (hred : (⟨3, ![2, 4, 256]⟩ : Shape).ReducesTo [(0 : Fin 3)] ⟨2, ![4, 256]⟩) (hu : 0 < (⟨0, ![]⟩ : Shape).numel)
    (M : FVec Ideal ⟨2, ![4, 262144]⟩ .f32) (X : FVec Ideal ⟨2, ![262144, 256]⟩ .f32) (G : FVec Ideal ⟨3, ![2, 4, 256]⟩ .f32)
    (hG : ∀ (p : Fin 2) (g : Fin 4) (d : Fin 256),
      G (ix3 p g d) = ∑ j : Fin 16, ∑ i : Fin 8192, M (ix2 g (pos p j i)) * X (ix2 (pos p j i) d)) :
    Host.reduceAdd G (constant (F := Ideal) ⟨0, ![]⟩ .f32 0x00000000#32) hred hu = Host.dotGeneral dK none M X := by
  have h : (⟨3, ![2, 4, 256]⟩ : Shape).Reduces [(0 : Fin 3)] ⟨2, ![4, 256]⟩ := by decide
  funext j
  obtain ⟨g, d, rfl⟩ : ∃ (g : Fin 4) (d : Fin 256), j = ix2 g d := ⟨j 0, j 1, eq_ix2 j⟩
  -- the host's sum at (g, d): zero plus the sum over the two halves of the entries (p, g, d)
  show Ideal.hostReduceAdd hred G (Ideal.ofBits .f32 0x00000000#32) (ix2 g d) = _
  rw [Ideal.hostReduceAdd_single hred h, Ideal.ofBits_zero_f32, zero_add]
  -- the plain product at (g, d): the sum over all positions, cut into halves and steps
  rw [Cert.LibKeepdims.dotGeneral_plain_apply dK hd none M X g d,
    ← sum_halves_steps (fun n : Fin 262144 => M (ix2 g n) * X (ix2 n d))]
  show ∑ p : Fin 2, G (h.lift (ix2 g d) p) = _
  refine Finset.sum_congr rfl fun p _ => ?_
  rw [lift_ix2_axis0 h g d p]
  exact hG p g d

end Cert.Algebra

end
-- ==== Proof.KI.ValueIdeal.lean ====
/-
  The region's result at the exact reals, and the sum over its two halves as one matrix product.

  Write `X` for the [N, 256] feature matrix and `M` for the [4, N] mask matrix as the region finds them.  At the point at
  position `t` the feature window holds rows `8192 t … 8192 t + 8191` of `X` and the mask window the same columns of `M`, and
  the update adds to entry `(0, g, d)` of the output block the inner product `∑ i, M (g, 8192 t + i) * X (8192 t + i, d)`.  A
  reset point starts from zero, so after the last point of half `p` the block holds the sum of the sixteen inner products of
  that half; these are the entries of the result array, and the host's sum of its two halves is the product `M X`.
-/
import proofs.«178769_j32263794327816_1_alg».proof.Proof.KI.Value
import proofs.«178769_j32263794327816_1_alg».proof.Proof.KI.Pay
import proofs.«178769_j32263794327816_1_alg».proof.Proof.Algebra
import proofs.«178769_j32263794327816_1_alg».proof.Proof.LibTileSums

set_option maxRecDepth 16384

noncomputable section

namespace Cert.KernelIdeal.ValI

open Cert.KernelIdeal Cert.KernelIdeal.Gen Cert.KernelIdeal.Frm Cert.KernelIdeal.Val
open Cert.KernelIdeal.Facts₀ Cert.KernelIdeal.Facts
open Idealize.ShloMosaic Idealize.ShloMosaic.TcCoe Idealize.SL.Sem Idealize.ShloMosaic.ValueIdx
open Cert.Algebra (pos)
open scoped BigOperators

variable (m : (ℓ : Loc nD τ sig) → Buf (Elt Ideal) ℓ)

/-- The feature matrix and the mask matrix as the region finds them, and the two input blocks at a point, at their literal
    types. -/
abbrev X (c : Dev nD) : Vec Ideal S262144x256 .f32 := V m c main_arg0
abbrev M (c : Dev nD) : Vec Ideal S4x262144 .f32 := V m c main_v22
abbrev xblk (c : Dev nD) (t : Fin cfg0.N) : Vec Ideal S8192x256 .f32 := iblk m c 0 t
abbrev mblk (c : Dev nD) (t : Fin cfg0.N) : Vec Ideal S4x8192 .f32 := iblk m c 1 t

/-- Position `i` of the block of point `t` is a position of the long axis. -/
theorem at_lt (t : Fin cfg0.N) (i : Fin 8192) : t.val * 8192 + i.val < 262144 := by
  have hN : t.val < 32 := lt_of_lt_of_eq t.isLt (show cfg0.N = 32 from N_0)
  have := i.isLt; omega

/-- Entry `(i, d)` of the feature block of point `t` is entry `(8192 t + i, d)` of the feature matrix. -/
theorem xblk_apply (c : Dev nD) (t : Fin cfg0.N) (i : Fin 8192) (d : Fin 256) :
    xblk m c t (ix2 i d) = X m c (ix2 ⟨t.val * 8192 + i.val, at_lt t i⟩ d) := by
  obtain ⟨e0, e1, -, -, -, -, -⟩ := idx_facts t
  show V m c main_arg0 (((cfg0.win 0).blk t).view.emb (ix2 i d)) = V m c main_arg0 _
  refine congrArg (V m c main_arg0) (funext fun a => Fin.ext ?_)
  match a with
  | ⟨0, _⟩ => show win0_0.index t (0 : Fin 2) * 8192 + 1 * i.val = t.val * 8192 + i.val; rw [e0]; omega
  | ⟨1, _⟩ => show win0_0.index t (1 : Fin 2) * 256 + 1 * d.val = d.val; rw [e1]; omega

/-- Entry `(g, i)` of the mask block of point `t` is entry `(g, 8192 t + i)` of the mask matrix. -/
theorem mblk_apply (c : Dev nD) (t : Fin cfg0.N) (g : Fin 4) (i : Fin 8192) :
    mblk m c t (ix2 g i) = M m c (ix2 g ⟨t.val * 8192 + i.val, at_lt t i⟩) := by
  obtain ⟨-, -, e0, e1, -, -, -⟩ := idx_facts t
  show V m c main_v22 (((cfg0.win 1).blk t).view.emb (ix2 g i)) = V m c main_v22 _
  refine congrArg (V m c main_v22) (funext fun a => Fin.ext ?_)
  match a with
  | ⟨0, _⟩ => show win0_1.index t (0 : Fin 2) * 4 + 1 * g.val = g.val; rw [e0]; omega
  | ⟨1, _⟩ => show win0_1.index t (1 : Fin 2) * 8192 + 1 * i.val = t.val * 8192 + i.val; rw [e1]; omega

/-- The inner product the point at position `n` adds at `(g, d)` (zero past the grid), -/
def stepT (c : Dev nD) (g : Fin 4) (d : Fin 256) (n : ℕ) : EReal :=
  if h : n < cfg0.N then ∑ i : Fin 8192, mblk m c ⟨n, h⟩ (ix2 g i) * xblk m c ⟨n, h⟩ (ix2 i d) else 0
/-- and entry `(0, g, d)` of the running value after it. -/
def runT (c : Dev nD) (g : Fin 4) (d : Fin 256) (n : ℕ) : EReal :=
  if h : n < cfg0.N then run m c n h (ix3 (0 : Fin 1) g d) else 0

/-- A reset point leaves zero plus its inner product. -/
theorem runT_reset (c : Dev nD) (g : Fin 4) (d : Fin 256) (n : ℕ) (h : n < cfg0.N) (h0 : n % 16 = 0) :
    runT m c g d n = 0 + stepT m c g d n := by
  unfold runT stepT
  rw [dif_pos h, dif_pos h]
  cases n with
  | zero =>
    show k0_pay2 (xblk m c ⟨0, h⟩) (mblk m c ⟨0, h⟩) (k0_pay1 (F := Ideal)) (ix3 (0 : Fin 1) g d) = _
    rw [Pay.pay2_apply, Pay.pay1_apply]
  | succ n =>
    simp only [run, if_pos h0]
    show k0_pay2 (xblk m c ⟨n + 1, h⟩) (mblk m c ⟨n + 1, h⟩) (k0_pay1 (F := Ideal)) (ix3 (0 : Fin 1) g d) = _
    rw [Pay.pay2_apply, Pay.pay1_apply]

/-- A later point adds its inner product to what the point before left. -/
theorem runT_step (c : Dev nD) (g : Fin 4) (d : Fin 256) (n : ℕ) (h : n + 1 < cfg0.N) (h0 : ¬(n + 1) % 16 = 0) :
    runT m c g d (n + 1) = runT m c g d n + stepT m c g d (n + 1) := by
  unfold runT stepT
  rw [dif_pos h, dif_pos h, dif_pos (Nat.lt_of_succ_lt h)]
  simp only [run, if_neg h0]
  show k0_pay2 (xblk m c ⟨n + 1, h⟩) (mblk m c ⟨n + 1, h⟩) (run m c n (Nat.lt_of_succ_lt h)) (ix3 (0 : Fin 1) g d) = _
  rw [Pay.pay2_apply]

/-- After the last point of half `p` the running value holds the sum of that half's sixteen inner products. -/
theorem half_sum (c : Dev nD) (g : Fin 4) (d : Fin 256) (p : Fin 2) :
    runT m c g d (p.val * 16 + 15) = ∑ j : Fin 16, stepT m c g d (p.val * 16 + j.val) := by
  have hp : p.val < 2 := p.isLt
  have hN : cfg0.N = 32 := N_0
  exact Cert.LibTileSums.fold_eq_sum (fun j => stepT m c g d (p.val * 16 + j)) (fun j => runT m c g d (p.val * 16 + j)) 16
    (runT_reset m c g d (p.val * 16 + 0) (by rw [hN]; omega) (by omega))
    (fun j hj => runT_step m c g d (p.val * 16 + j) (by rw [hN]; omega) (by omega)) 15 (by norm_num)

/-- The inner product of step `j` of half `p`, over the two matrices. -/
theorem stepT_eq (c : Dev nD) (g : Fin 4) (d : Fin 256) (p : Fin 2) (j : Fin 16) :
    stepT m c g d (p.val * 16 + j.val) = ∑ i : Fin 8192, M m c (ix2 g (pos p j i)) * X m c (ix2 (pos p j i) d) := by
  have hp : p.val < 2 := p.isLt
  have hj : j.val < 16 := j.isLt
  have h : p.val * 16 + j.val < cfg0.N := by rw [show cfg0.N = 32 from N_0]; omega
  unfold stepT
  rw [dif_pos h]
  refine Finset.sum_congr rfl fun i _ => ?_
  rw [mblk_apply, xblk_apply]

/-- Entry `(p, g, d)` of the result array: the sum over the steps and positions of half `p`. -/
theorem resultAt_eq (c : Dev nD) (p : Fin 2) (g : Fin 4) (d : Fin 256) :
    resultAt m c p g d = ∑ j : Fin 16, ∑ i : Fin 8192, M m c (ix2 g (pos p j i)) * X m c (ix2 (pos p j i) d) := by
  have h := half_sum m c g d p
  unfold runT at h
  rw [dif_pos (last_lt p)] at h
  unfold resultAt
  rw [h]
  exact Finset.sum_congr rfl fun j _ => stepT_eq m c g d p j

/-- The host's sum of the result array over its two halves is the product of the mask matrix and the feature matrix. -/
theorem sums_eq (c : Dev nD) (dK : DotDims ⟨2, ![4, 262144]⟩ ⟨2, ![262144, 256]⟩ ⟨2, ![4, 256]⟩) (hd : dK = DotDims.plain 4 262144 256) :
    Host.reduceAdd (result m c) (constant (F := Ideal) S_ .f32 0x00000000#32) Facts₀.reducesTo_S2x4x256_S4x256_d0 Facts₀.h_S_
      = Host.dotGeneral (φ₁ := .f32) (φ₂ := .f32) dK none (M m c) (X m c) :=
  Cert.Algebra.host_sum_eq_dot dK hd Facts₀.reducesTo_S2x4x256_S4x256_d0 Facts₀.h_S_ (M m c) (X m c) (result m c)
    (fun p g d => resultAt_eq m c p g d)

end Cert.KernelIdeal.ValI

end
-- ==== Proof.Spec.lean ====
/-
  The specification: what the program computes from its two arguments, as three pure functions.

  * `masks t` — for a vector `t` of N = 262144 targets, the [4, N] matrix whose row `g` is 1 where `t` lies in the
    `g`-th range (`t ≤ 0.1`, `0.3 < t ≤ 0.4`, `0.6 < t ≤ 0.7`, `0.8 < t ≤ 1.1`) and 0 elsewhere;
  * `counts M` — the row sums of that matrix, one per range;
  * `loss cnt sums` — from the four counts and the [4, 256] matrix of per-range feature sums: the per-range means
    (`sums / max cnt 1` where the count is positive, 0 elsewhere), the Euclidean distance of each of the six pairs of
    means, and the sum of six hinge terms `max (d − d' + margin) 0` over them.

  Both programs are these three functions around their own way of forming the per-range sums: a matrix product on the one
  side, a tiled and accumulated product followed by a sum of two partial results on the other.  Everything here is stated
  for an arbitrary float family, in the spelling the printed host operations use.
-/
import proofs.«178769_j32263794327816_1_alg».proof.KernelIdeal

noncomputable section

namespace Cert.KernelIdeal.Spec

open Cert.KernelIdeal Idealize.ShloMosaic
open Cert.KernelIdeal.Facts₀ Cert.KernelIdeal.Facts

variable [Cert.KernelIdeal.Facts] {F : FTy → Type} [FloatOps F]

/-- A scalar threshold laid over all N targets. -/
def thr (w : BitVec 32) : (⟨S262144, .f32⟩ : BufTy).Contents (Elt F) :=
  broadcastInDim S262144 ![] bcast_S_S262144 (constant (F := F) S_ .f32 w)

/-- A vector of N truth values as one row of a [1, N] matrix. -/
def asRow (b : (⟨S262144, .i1⟩ : BufTy).Contents (Elt F)) : (⟨S1x262144, .i1⟩ : BufTy).Contents (Elt F) :=
  broadcastInDim S1x262144 ![1] bcast_S262144_S1x262144_1 b

/-- Membership of each target in the half-open range `(lo, hi]`. -/
def inRange (t : (⟨S262144, .f32⟩ : BufTy).Contents (Elt F)) (lo hi : BitVec 32) : (⟨S262144, .i1⟩ : BufTy).Contents (Elt F) :=
  andi (cmpf (F := F) .ogt t (thr (F := F) lo)) (cmpf (F := F) .ole t (thr (F := F) hi))

/-- The four range masks of the targets, stacked and read as floats. -/
def masks (t : (⟨S262144, .f32⟩ : BufTy).Contents (Elt F)) : (⟨S4x262144, .f32⟩ : BufTy).Contents (Elt F) :=
  uitofp (F := F) .f32 (concatenate S4x262144 0
    [⟨S1x262144, asRow (F := F) (cmpf (F := F) .ole t (thr (F := F) 0x3DCCCCCD#32))⟩,
     ⟨S1x262144, asRow (F := F) (inRange (F := F) t 0x3E99999A#32 0x3ECCCCCD#32)⟩,
     ⟨S1x262144, asRow (F := F) (inRange (F := F) t 0x3F19999A#32 0x3F333333#32)⟩,
     ⟨S1x262144, asRow (F := F) (inRange (F := F) t 0x3F4CCCCD#32 0x3F8CCCCD#32)⟩]
    concatenates_S1x262144_S1x262144_S1x262144_S1x262144_S4x262144_d0)

/-- How many targets fall in each range: the row sums of the mask matrix. -/
def counts (M : (⟨S4x262144, .f32⟩ : BufTy).Contents (Elt F)) : (⟨S4, .f32⟩ : BufTy).Contents (Elt F) :=
  Host.reduceAdd M (constant (F := F) S_ .f32 0x00000000#32) reducesTo_S4x262144_S4_d1 h_S_

/-- The per-range means: the sums divided by the counts (at least 1), and 0 for an empty range. -/
def means (cnt : (⟨S4, .f32⟩ : BufTy).Contents (Elt F)) (sums : (⟨S4x256, .f32⟩ : BufTy).Contents (Elt F)) :
    (⟨S4x256, .f32⟩ : BufTy).Contents (Elt F) :=
  select
    (broadcastInDim S4x256 ![0, 1] bcast_S4x1_S4x256_0_1
      (cmpf (F := F) .ogt (broadcastInDim S4x1 ![0] bcast_S4_S4x1_0 cnt)
        (broadcastInDim S4x1 ![] bcast_S_S4x1 (constant (F := F) S_ .f32 0x00000000#32))))
    (Host.divf sums
      (broadcastInDim S4x256 ![0, 1] bcast_S4x1_S4x256_0_1
        (broadcastInDim S4x1 ![0] bcast_S4_S4x1_0
          (maximumf cnt (broadcastInDim S4 ![] bcast_S_S4 (constant (F := F) S_ .f32 0x3F800000#32))))))
    (broadcastInDim S4x256 ![] bcast_S_S4x256 (id (constant (F := F) S_ .f32 0x00000000#32)))

/-- Row `g` of a [4, 256] matrix as a vector, for each of the four rows. -/
def row0 (M : (⟨S4x256, .f32⟩ : BufTy).Contents (Elt F)) : (⟨S256, .f32⟩ : BufTy).Contents (Elt F) :=
  shapeCast S256 (extractStridedSlice S1x256 ![0, 0] M slices_S4x256_S1x256_0_0) shapeCasts_S1x256_S256
def row1 (M : (⟨S4x256, .f32⟩ : BufTy).Contents (Elt F)) : (⟨S256, .f32⟩ : BufTy).Contents (Elt F) :=
  shapeCast S256 (extractStridedSlice S1x256 ![1, 0] M slices_S4x256_S1x256_1_0) shapeCasts_S1x256_S256
def row2 (M : (⟨S4x256, .f32⟩ : BufTy).Contents (Elt F)) : (⟨S256, .f32⟩ : BufTy).Contents (Elt F) :=
  shapeCast S256 (extractStridedSlice S1x256 ![2, 0] M slices_S4x256_S1x256_2_0) shapeCasts_S1x256_S256
def row3 (M : (⟨S4x256, .f32⟩ : BufTy).Contents (Elt F)) : (⟨S256, .f32⟩ : BufTy).Contents (Elt F) :=
  shapeCast S256 (extractStridedSlice S1x256 ![3, 0] M slices_S4x256_S1x256_3_0) shapeCasts_S1x256_S256

/-- The Euclidean distance of two vectors: the square root of the sum of the squared differences. -/
def dist (a b : (⟨S256, .f32⟩ : BufTy).Contents (Elt F)) : (⟨S_, .f32⟩ : BufTy).Contents (Elt F) :=
  Host.sqrt (Host.reduceAdd (mulf (subf a b) (subf a b)) (constant (F := F) S_ .f32 0x00000000#32) reducesTo_S256_S_d0 h_S_)

/-- One hinge term: `max (x − y + margin) 0`. -/
def hinge (x y : (⟨S_, .f32⟩ : BufTy).Contents (Elt F)) (margin : BitVec 32) : (⟨S_, .f32⟩ : BufTy).Contents (Elt F) :=
  maximumf (addf (subf x y) (constant (F := F) S_ .f32 margin)) (constant (F := F) S_ .f32 0x00000000#32)

/-- The six hinge terms over the pairwise distances of the means, summed left to right (margins 0.75 and 1.5). -/
def lossOfMeans (M : (⟨S4x256, .f32⟩ : BufTy).Contents (Elt F)) : (⟨S_, .f32⟩ : BufTy).Contents (Elt F) :=
  addf (addf (addf (addf (addf
    (hinge (dist (row0 M) (row1 M)) (dist (row0 M) (row2 M)) 0x3F400000#32)
    (hinge (dist (row0 M) (row1 M)) (dist (row0 M) (row3 M)) 0x3FC00000#32))
    (hinge (dist (row1 M) (row2 M)) (dist (row1 M) (row3 M)) 0x3F400000#32))
    (hinge (dist (row1 M) (row2 M)) (dist (row0 M) (row3 M)) 0x3FC00000#32))
    (hinge (dist (row2 M) (row3 M)) (dist (row1 M) (row3 M)) 0x3F400000#32))
    (hinge (dist (row2 M) (row3 M)) (dist (row0 M) (row3 M)) 0x3FC00000#32)

/-- The loss from the counts and the per-range sums. -/
def loss (cnt : (⟨S4, .f32⟩ : BufTy).Contents (Elt F)) (sums : (⟨S4x256, .f32⟩ : BufTy).Contents (Elt F)) :
    (⟨S_, .f32⟩ : BufTy).Contents (Elt F) :=
  lossOfMeans (means cnt sums)

end Cert.KernelIdeal.Spec

end
-- ==== Proof.KI.TailEval.lean ====
/-
  The host operations around the region, read as the specification's functions.

  Before the region: from any contents, the 32 operations leave the mask matrix of the targets in `main_v22` and its row sums
  in `main_v23`.  After the region: from any contents `W`, the 106 operations leave in `main_v93` the loss of the counts
  found in `main_v23` and of the sum over the two halves of the [2, 4, 256] array found in `main_v24`.  Each statement is the
  fold of the operations' results read at one buffer; nothing here depends on the float family.
-/
import proofs.«178769_j32263794327816_1_alg».proof.Proof.KI.Kit
import proofs.«178769_j32263794327816_1_alg».proof.Proof.Spec
import Idealize.ShloMosaic.Lib.StableHlo.Run

set_option maxRecDepth 16384

noncomputable section

namespace Cert.KernelIdeal.TailEval

open Cert.KernelIdeal Cert.KernelIdeal.Gen Idealize.ShloMosaic Idealize.ShloMosaic.TcCoe Idealize.SL.Sem Idealize.ShloMosaic.StableHlo
open Cert.KernelIdeal.Facts₀ Cert.KernelIdeal.Facts

variable {F : FTy → Type} [FloatOps F]

/-- The operations before the region leave the mask matrix of the targets in `main_v22`. -/
theorem pre_masks (M : Valuation τ sig (Elt F)) :
    StableHlo.after (hostOps0 (F := F)) M (Proc.devRef .tc main_v22) = Spec.masks (M (Proc.devRef .tc main_arg1)) := by
  -- each operation's result at its own buffer is its function of its operands' contents; any other buffer is untouched
  after_results_simp
  -- what is left is the specification's term, unfolded: four threshold comparisons as rows, stacked and read as floats
  all_goals rfl

/-- And its row sums in `main_v23`. -/
theorem pre_counts (M : Valuation τ sig (Elt F)) :
    StableHlo.after (hostOps0 (F := F)) M (Proc.devRef .tc main_v23) = Spec.counts (Spec.masks (M (Proc.devRef .tc main_arg1))) := by
  -- the same reading, one operation further: the row sums of the mask matrix
  after_results_simp
  all_goals rfl

set_option maxHeartbeats 4000000 in
/-- The operations after the region leave in `main_v93` the loss of the counts in `main_v23` and the summed halves of `main_v24`. -/
theorem tail_eval (W : Valuation τ sig (Elt F)) :
    StableHlo.after (Frm.tailOpss (F := F)).flatten W (Proc.devRef .tc main_v93)
      = Spec.loss (W (Proc.devRef .tc main_v23))
          (Host.reduceAdd (W (Proc.devRef .tc main_v24)) (constant (F := F) S_ .f32 0x00000000#32) Facts₀.reducesTo_S2x4x256_S4x256_d0 Facts₀.h_S_) := by
  -- the 27 stretches as one literal list of 106 operations
  simp only [Frm.tailOpss, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, List.flatten_cons, List.flatten_nil, List.append_nil, List.cons_append, List.nil_append]
  -- each operation's result at its own buffer is its function of its operands' contents; any other buffer is untouched
  after_results_simp
  -- what is left is the specification's term, unfolded: means, six distances of rows, six hinge terms summed left to right
  all_goals rfl

end Cert.KernelIdeal.TailEval

end
-- ==== Proof.KI.Result.lean ====
/-
  The idealized kernel program's run, read: its result is the loss of the counts of the masks of the targets and of the
  matrix product of the mask matrix with the feature matrix, and its arguments end unchanged.

  The tail of host operations computes the loss from the counts it finds in `main_v23` (left there by the operations before
  the region) and from the sum over the two halves of the region's result array; that array holds the per-half sums of
  inner products, whose sum over the halves is the one matrix product.
-/
import proofs.«178769_j32263794327816_1_alg».proof.Proof.KI.ValueIdeal
import proofs.«178769_j32263794327816_1_alg».proof.Proof.KI.TailEval

set_option maxRecDepth 16384

noncomputable section

namespace Cert.KernelIdeal.Res

open Cert.KernelIdeal Cert.KernelIdeal.Gen Cert.KernelIdeal.Frm Cert.KernelIdeal.Val
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The specification at two argument arrays, with the per-range sums formed by one matrix product `dK`. -/
def specVal (dK : DotDims ⟨2, ![4, 262144]⟩ ⟨2, ![262144, 256]⟩ ⟨2, ![4, 256]⟩)
    (x0 : (⟨S262144x256, .f32⟩ : BufTy).Contents (Elt Ideal)) (x1 : (⟨S262144, .f32⟩ : BufTy).Contents (Elt Ideal)) :
    (⟨S_, .f32⟩ : BufTy).Contents (Elt Ideal) :=
  Spec.loss (Spec.counts (Spec.masks x1)) (Host.dotGeneral (φ₁ := .f32) (φ₂ := .f32) dK none (Spec.masks x1) x0)

/-- The region finds the mask matrix of the launched targets in `main_v22`. -/
theorem M_eq (c : Dev nD) : ValI.M m c = Spec.masks (m ((c.tc : Thread nD τ).loc main_arg1)) := by
  show StableHlo.after (List.flatten [hostOps0]) (fun b => m (c, b)) (Proc.devRef .tc main_v22) = _
  simp only [List.flatten_cons, List.flatten_nil, List.append_nil]
  exact TailEval.pre_masks (fun b => m (c, b))

/-- What the tail leaves in the result buffer. -/
theorem value (c : Dev nD) (dK : DotDims ⟨2, ![4, 262144]⟩ ⟨2, ![262144, 256]⟩ ⟨2, ![4, 256]⟩) (hd : dK = DotDims.plain 4 262144 256) :
    Pipeline.afterTail₀ cfgs (dats m) 0 (V0 m) tailOpss c main_v93
      = specVal dK (m ((c.tc : Thread nD τ).loc main_arg0)) (m ((c.tc : Thread nD τ).loc main_arg1)) := by
  unfold Pipeline.afterTail₀
  rw [TailEval.tail_eval]
  have h23 : Pipeline.withArrays (cfgs 0).spec c (V0 m c) (fun w => (dats m 0 c).arrAt w (cfgs 0).N) (Proc.devRef .tc main_v23)
      = Spec.counts (Spec.masks (m ((c.tc : Thread nD τ).loc main_arg1))) := by
    rw [Pipeline.withArrays_of_ne _ c (V0 m c) _ main_v23 (by exact (by decide : ∀ w, Pipeline.arrRef spec0 w ≠ main_v23))]
    show StableHlo.after (List.flatten [hostOps0]) (fun b => m (c, b)) (Proc.devRef .tc main_v23) = _
    simp only [List.flatten_cons, List.flatten_nil, List.append_nil]
    exact TailEval.pre_counts (fun b => m (c, b))
  have h24 : Pipeline.withArrays (cfgs 0).spec c (V0 m c) (fun w => (dats m 0 c).arrAt w (cfgs 0).N) (Proc.devRef .tc main_v24)
      = result m c :=
    (Pipeline.withArrays_arr spec0 launch0.win.arr_inj c _ _ 2).trans (final m c)
  rw [h23, h24, ValI.sums_eq m c dK hd, M_eq, show ValI.X m c = m ((c.tc : Thread nD τ).loc main_arg0) from V_main_arg0 m c]
  rfl

/-- The run: the result at the specification of the launched arguments, the arguments unchanged. -/
theorem run (dK : DotDims ⟨2, ![4, 262144]⟩ ⟨2, ![262144, 256]⟩ ⟨2, ![4, 256]⟩) (hd : dK = DotDims.plain 4 262144 256) :
    θ_run defs (onTc (τ := τ) (main (F := Ideal))) ⟨m, fun _ => 0, ρ⟩ fun r => ∀ c : Dev nD,
      r.2.mem ((c.tc : Thread nD τ).loc main_v93) = specVal dK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v93 (Pipeline.mem_restRefs_of main_v93 (by decide) (by decide))).trans (value m c dK hd),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Res

end
-- ==== Proof.RefEq.lean ====
/-
  The reference's result as the specification's functions: the loss of the counts of the masks of the targets and of the one
  matrix product of the mask matrix with the feature matrix.  The reference's shapes and side conditions are its own
  program's; they are the same literal shapes as the kernel program's, over which the specification is written.
-/
import proofs.«178769_j32263794327816_1_alg».proof.Proof.RefRun
import proofs.«178769_j32263794327816_1_alg».proof.Proof.Gen.KernelIdeal
import proofs.«178769_j32263794327816_1_alg».proof.Proof.Spec

set_option maxRecDepth 16384

noncomputable section

namespace Cert.ReferenceIdeal.RefEq

open Cert.ReferenceIdeal Cert.ReferenceIdeal.Gen Idealize.ShloMosaic Idealize.ShloMosaic.TcCoe Idealize.SL.Sem Idealize.ShloMosaic.StableHlo
open Cert.ReferenceIdeal.Facts₀ Cert.ReferenceIdeal.Facts

variable {F : FTy → Type} [FloatOps F]

/-- The reference's result term is the specification at the launch contents of the two arguments. -/
theorem res_eq (m : (ℓ : Loc nD τ sig) → Buf (Elt F) ℓ) (c : Dev nD) :
    ValueP.res_main_v92 m c
      = Cert.KernelIdeal.Spec.loss
          (Cert.KernelIdeal.Spec.counts (Cert.KernelIdeal.Spec.masks (m ((c.tc : Thread nD τ).loc main_arg1))))
          (Host.dotGeneral dot_S4x262144_S262144x256_S4x256_1_0_0_1_n_n none
            (Cert.KernelIdeal.Spec.masks (m ((c.tc : Thread nD τ).loc main_arg1))) (m ((c.tc : Thread nD τ).loc main_arg0))) := by
  unfold ValueP.res_main_v92
  rfl

end Cert.ReferenceIdeal.RefEq

end
-- ==== Proof.lean ====
/-
  A masked group-mean hinge loss, computed two ways, is one function of its arguments.

  From N = 262144 targets `t` and an [N, 256] feature matrix `X` both programs build the [4, N] matrix `M` of the four range
  masks of `t`, the four counts (row sums of `M`), the [4, 256] per-range sums of features, the per-range means, the six
  pairwise distances of the means and a sum of six hinge terms over them.  They differ only in how the per-range sums are
  formed.  The reference takes the matrix product `M X`.  The kernel program cuts the N contracted positions into 2 halves of
  16 steps of 8192: a pipelined region streams one step's rows of `X` and columns of `M` per grid point and accumulates their
  [4, 256] product into the block of its half (reset at the first step of a half, written back after the sixteenth), and
  the host then adds the two halves.  Over the extended reals these are the same sum, regrouped: only associativity and
  commutativity of `+` and `0 + x = x` are used, so nothing is asked of the inputs beyond what the claim states.

  The three frames: the word-level and the idealized kernel program run to the end without fault and leave their arguments
  (the frame of the one region, proved once for any float family, and read in each program's namespace); the reference is a
  straight line of host operations.  The ideal pass rewrote nothing, so `preserves` is `True`.  For the value claim both runs
  are read at the specification (`Cert.KernelIdeal.Res.specVal`) of the launched arguments.
-/
import proofs.«178769_j32263794327816_1_alg».proof.Defs
import proofs.«178769_j32263794327816_1_alg».proof.Proof.Gen.Kernel
import proofs.«178769_j32263794327816_1_alg».proof.Proof.Gen.KernelIdeal
import proofs.«178769_j32263794327816_1_alg».proof.Proof.Gen.ReferenceIdeal
import proofs.«178769_j32263794327816_1_alg».proof.Proof.Gen.Pre_finite_inputs
import proofs.«178769_j32263794327816_1_alg».proof.Proof.K.Frame
import proofs.«178769_j32263794327816_1_alg».proof.Proof.KI.Result
import proofs.«178769_j32263794327816_1_alg».proof.Proof.RefEq
import Idealize.ShloMosaic.Adequacy
import Idealize.ShloMosaic.Init

noncomputable section

namespace Cert.Proof

open Idealize.ShloMosaic Idealize.SL.Sem

/-- The reference's one matrix product contracts axis 1 of the [4, N] masks with axis 0 of the [N, 256] features. -/
theorem refDot_plain : Cert.ReferenceIdeal.dot_S4x262144_S262144x256_S4x256_1_0_0_1_n_n = DotDims.plain 4 262144 256 := rfl

theorem claim : Cert.Claim := ⟨Cert.Kernel.Gen.facts, Cert.KernelIdeal.Gen.facts, Cert.ReferenceIdeal.Gen.facts, Cert.Pre_finite_inputs.Gen.facts,
  fun m ρ _ => Cert.Kernel.Frm.frame m ρ,
  fun m ρ _ => Cert.KernelIdeal.Frm.frame m ρ,
  fun m ρ _ => (θ_run Cert.ReferenceIdeal.defs _ _).mono (fun _ h c => (h c).2) (Cert.ReferenceIdeal.ValueP.run (F := Ideal) m ρ),
  trivial,
  fun m ρ m' ρ' _ hagree =>
    ⟨fun c => Cert.KernelIdeal.Res.specVal Cert.ReferenceIdeal.dot_S4x262144_S262144x256_S4x256_1_0_0_1_n_n
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Res.run m ρ _ refDot_plain,
      (θ_run Cert.ReferenceIdeal.defs _ _).mono (fun _ h c =>
        ⟨by rw [(h c).1, Cert.ReferenceIdeal.RefEq.res_eq, (hagree c).1, (hagree c).2]; rfl, (h c).2⟩)
        (Cert.ReferenceIdeal.ValueP.run (F := Ideal) m' ρ')⟩⟩

end Cert.Proof

end
